-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S256x1 .f32) (main_arg15 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg14
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256x256 .f32) (main_arg11 : FVec F S256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_v48 main_v49 main_v50

def fn_part1 {F : FTy → Type} [FloatOps F] (main_arg7 : FVec F S256x256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S1000000x128 .f32) (main_arg1 : IVec S1228800 32) (main_arg2 : IVec S122880x10 32) (main_arg3 : IVec S12288x10 32) (main_arg4 : FVec F S128x256 .f32) (main_arg5 : FVec F S128x256 .f32) (main_arg6 : FVec F S256 .f32) (main_arg7 : FVec F S256x256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_v13 main_v16
-- ==== Kernel.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S122880 : Shape := ⟨1, ![122880]⟩
abbrev S_ : Shape := ⟨0, ![]⟩
abbrev S122880x10x1 : Shape := ⟨3, ![122880, 10, 1]⟩
abbrev S122880x1 : Shape := ⟨2, ![122880, 1]⟩
abbrev S122880x128 : Shape := ⟨2, ![122880, 128]⟩
abbrev S122880x10x128 : Shape := ⟨3, ![122880, 10, 128]⟩
abbrev S122880x256 : Shape := ⟨2, ![122880, 256]⟩
abbrev S1024x128 : Shape := ⟨2, ![1024, 128]⟩
abbrev S1024x10x128 : Shape := ⟨3, ![1024, 10, 128]⟩
abbrev S1024x256 : Shape := ⟨2, ![1024, 256]⟩
abbrev S1x256 : Shape := ⟨2, ![1, 256]⟩
abbrev S12288x256 : Shape := ⟨2, ![12288, 256]⟩
abbrev S12288x10x1 : Shape := ⟨3, ![12288, 10, 1]⟩
abbrev S12288x10x256 : Shape := ⟨3, ![12288, 10, 256]⟩
abbrev S256x10x256 : Shape := ⟨3, ![256, 10, 256]⟩
abbrev S4096x256 : Shape := ⟨2, ![4096, 256]⟩
abbrev S8192x256 : Shape := ⟨2, ![8192, 256]⟩
abbrev S8192x1 : Shape := ⟨2, ![8192, 1]⟩
abbrev S2048x256 : Shape := ⟨2, ![2048, 256]⟩
abbrev S2048x1 : Shape := ⟨2, ![2048, 1]⟩
abbrev S1x1 : Shape := ⟨2, ![1, 1]⟩

abbrev nBuf : Space → Nat
  | .hbm => 63
  | .vmem => 30
  | .smem => 0
  | _ => 0

abbrev bufTy : (tb : Table) → Fin (tcTables nBuf tb) → BufTy
  | .hbm, ⟨0, _⟩ => ⟨S1000000x128, .f32⟩
  | .hbm, ⟨1, _⟩ => ⟨S1228800, .i32⟩
  | .hbm, ⟨2, _⟩ => ⟨S122880x10, .i32⟩
  | .hbm, ⟨3, _⟩ => ⟨S12288x10, .i32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S1000000x128, .bf16⟩
  | .hbm, ⟨17, _⟩ => ⟨S122880, .i32⟩
  | .hbm, ⟨18, _⟩ => ⟨S_, .i32⟩
  | .hbm, ⟨19, _⟩ => ⟨S122880x10, .i32⟩
  | .hbm, ⟨20, _⟩ => ⟨S122880x10, .i1⟩
  | .hbm, ⟨21, _⟩ => ⟨S_, .i32⟩
  | .hbm, ⟨22, _⟩ => ⟨S122880x10, .i32⟩
  | .hbm, ⟨23, _⟩ => ⟨S122880x10, .i32⟩
  | .hbm, ⟨24, _⟩ => ⟨S122880x10, .i32⟩
  | .hbm, ⟨25, _⟩ => ⟨S122880x10x1, .i32⟩
  | .hbm, ⟨26, _⟩ => ⟨S122880x10, .i32⟩
  | .hbm, ⟨27, _⟩ => ⟨S_, .i32⟩
  | .hbm, ⟨28, _⟩ => ⟨S122880, .i32⟩
  | .hbm, ⟨29, _⟩ => ⟨S122880, .i1⟩
  | .hbm, ⟨30, _⟩ => ⟨S_, .i32⟩
  | .hbm, ⟨31, _⟩ => ⟨S122880, .i32⟩
  | .hbm, ⟨32, _⟩ => ⟨S122880, .i32⟩
  | .hbm, ⟨33, _⟩ => ⟨S122880, .i32⟩
  | .hbm, ⟨34, _⟩ => ⟨S122880x1, .i32⟩
  | .hbm, ⟨35, _⟩ => ⟨S122880x128, .bf16⟩
  | .hbm, ⟨36, _⟩ => ⟨S_, .i32⟩
  | .hbm, ⟨37, _⟩ => ⟨S122880x10, .i32⟩
  | .hbm, ⟨38, _⟩ => ⟨S122880x10, .i1⟩
  | .hbm, ⟨39, _⟩ => ⟨S_, .i32⟩
  | .hbm, ⟨40, _⟩ => ⟨S122880x10, .i32⟩
  | .hbm, ⟨41, _⟩ => ⟨S122880x10, .i32⟩
  | .hbm, ⟨42, _⟩ => ⟨S122880x10, .i32⟩
  | .hbm, ⟨43, _⟩ => ⟨S122880x10x1, .i32⟩
  | .hbm, ⟨44, _⟩ => ⟨S122880x10x128, .bf16⟩
  | .hbm, ⟨45, _⟩ => ⟨S122880x256, .bf16⟩
  | .hbm, ⟨46, _⟩ => ⟨S12288x256, .bf16⟩
  | .hbm, ⟨47, _⟩ => ⟨S_, .i32⟩
  | .hbm, ⟨48, _⟩ => ⟨S12288x10, .i32⟩
  | .hbm, ⟨49, _⟩ => ⟨S12288x10, .i1⟩
  | .hbm, ⟨50, _⟩ => ⟨S_, .i32⟩
  | .hbm, ⟨51, _⟩ => ⟨S12288x10, .i32⟩
  | .hbm, ⟨52, _⟩ => ⟨S12288x10, .i32⟩
  | .hbm, ⟨53, _⟩ => ⟨S12288x10, .i32⟩
  | .hbm, ⟨54, _⟩ => ⟨S12288x10x1, .i32⟩
  | .hbm, ⟨55, _⟩ => ⟨S12288x10x256, .bf16⟩
  | .hbm, ⟨56, _⟩ => ⟨S12288x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S8192x256, .f32⟩
  | .hbm, ⟨61, _⟩ => ⟨S8192x256, .f32⟩
  | .hbm, ⟨62, _⟩ => ⟨S8192x1, .f32⟩
  | .local _ .vmem, ⟨0, _⟩ => ⟨S1024x128, .bf16⟩
  | .local _ .vmem, ⟨1, _⟩ => ⟨S1024x128, .bf16⟩
  | .local _ .vmem, ⟨2, _⟩ => ⟨S1024x10x128, .bf16⟩
  | .local _ .vmem, ⟨3, _⟩ => ⟨S1024x10x128, .bf16⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S1024x256, .bf16⟩
  | .local _ .vmem, ⟨8, _⟩ => ⟨S1024x256, .bf16⟩
  | .local _ .vmem, ⟨9, _⟩ => ⟨S256x256, .bf16⟩
  | .local _ .vmem, ⟨10, _⟩ => ⟨S256x256, .bf16⟩
  | .local _ .vmem, ⟨11, _⟩ => ⟨S256x10x256, .bf16⟩
  | .local _ .vmem, ⟨12, _⟩ => ⟨S256x10x256, .bf16⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S256x256, .f32⟩
  | .local _ .vmem, ⟨23, _⟩ => ⟨S256, .f32⟩
  | .local _ .vmem, ⟨24, _⟩ => ⟨S256x256, .f32⟩
  | .local _ .vmem, ⟨25, _⟩ => ⟨S256, .f32⟩
  | .local _ .vmem, ⟨26, _⟩ => ⟨S256x1, .f32⟩
  | .local _ .vmem, ⟨27, _⟩ => ⟨S1, .f32⟩
  | .local _ .vmem, ⟨28, _⟩ => ⟨S2048x1, .f32⟩
  | .local _ .vmem, ⟨29, _⟩ => ⟨S2048x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x10x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  slices_S1228800_S122880_0 : S1228800.Slices ![0] S122880
  bcast_S_S122880x10 : S_.BroadcastsInDim S122880x10 (![] : Fin 0 → Fin S122880x10.rank)
  bcast_S122880x10_S122880x10x1_0_1 : S122880x10.BroadcastsInDim S122880x10x1 (![0, 1] : Fin 2 → Fin S122880x10x1.rank)
  bcast_S_S122880 : S_.BroadcastsInDim S122880 (![] : Fin 0 → Fin S122880.rank)
  bcast_S122880_S122880x1_0 : S122880.BroadcastsInDim S122880x1 (![0] : Fin 1 → Fin S122880x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x10x128_S1024x10x128_0_0_0 : ∀ a, (![0, 0, 0] : Fin 3 → Nat) a + S1024x10x128.size a ≤ S1024x10x128.size a
  h_S1024x10x128 : 0 < S1024x10x128.numel
  shapeCasts_S1024x10x128_S1024x10x128 : S1024x10x128.ShapeCasts S1024x10x128
  reduces_S1024x10x128_S1024x128 : S1024x10x128.Reduces [1] S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  slices_S122880x256_S12288x256_0_0 : S122880x256.Slices ![0, 0] S12288x256
  bcast_S_S12288x10 : S_.BroadcastsInDim S12288x10 (![] : Fin 0 → Fin S12288x10.rank)
  bcast_S12288x10_S12288x10x1_0_1 : S12288x10.BroadcastsInDim S12288x10x1 (![0, 1] : Fin 2 → Fin S12288x10x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x10x256_S256x10x256_0_0_0 : ∀ a, (![0, 0, 0] : Fin 3 → Nat) a + S256x10x256.size a ≤ S256x10x256.size a
  h_S256x10x256 : 0 < S256x10x256.numel
  shapeCasts_S256x10x256_S256x10x256 : S256x10x256.ShapeCasts S256x10x256
  reduces_S256x10x256_S256x256 : S256x10x256.Reduces [1] S256x256
  broadcasts_S1x256_S256x256 : S1x256.Broadcasts S256x256
  slices_S12288x256_S4096x256_0_0 : S12288x256.Slices ![0, 0] S4096x256
  slices_S12288x256_S4096x256_4096_0 : S12288x256.Slices ![4096, 0] S4096x256
  slices_S12288x256_S4096x256_8192_0 : S12288x256.Slices ![8192, 0] S4096x256
  concatenates_S4096x256_S4096x256_S8192x256_d0 : Shape.Concatenates [S4096x256, S4096x256] S8192x256 0
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S1228800_S122880x10x1_S122880x10_n_0_n_n_0_2_1_wf : GatherDims.WF S1228800 S122880x10x1 S122880x10 [] [0] [] [0] [] 2 ![1]
  gather_S1000000x128_S122880x1_S122880x128_1_0_n_n_0_1_1128_wf : GatherDims.WF S1000000x128 S122880x1 S122880x128 [1] [0] [] [0] [] 1 ![1, 128]
  gather_S1000000x128_S122880x10x1_S122880x10x128_2_0_n_n_0_2_1128_wf : GatherDims.WF S1000000x128 S122880x10x1 S122880x10x128 [2] [0] [] [0] [] 2 ![1, 128]
  dot_S1024x128_S128x256_S1024x256_1_0_0_1_n_n_wf : DotDims.WF S1024x128 S128x256 S1024x256 [1] [0] [0] [1] [] []
  gather_S122880x256_S12288x10x1_S12288x10x256_2_0_n_n_0_2_1256_wf : GatherDims.WF S122880x256 S12288x10x1 S12288x10x256 [2] [0] [] [0] [] 2 ![1, 256]
  dot_S256x256_S256x256_S256x256_1_0_0_1_n_n_wf : DotDims.WF S256x256 S256x256 S256x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S122880x128.size a
  hwx0_0 : ∀ i : grid0.Coords, EltTy.bits .bf16 = 32 ∨ (Rect.block (s := S122880x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10x128.size a ≤ S122880x10x128.size a
  hwx0_1 : ∀ i : grid0.Coords, EltTy.bits .bf16 = 32 ∨ (Rect.block (s := S122880x10x128) S1024x10x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S122880x256.size a
  hwx0_5 : ∀ i : grid0.Coords, EltTy.bits .bf16 = 32 ∨ (Rect.block (s := S122880x256) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S12288x256.size a
  hwx1_0 : ∀ i : grid1.Coords, EltTy.bits .bf16 = 32 ∨ (Rect.block (s := S12288x256) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x10x256.size a ≤ S12288x10x256.size a
  hwx1_1 : ∀ i : grid1.Coords, EltTy.bits .bf16 = 32 ∨ (Rect.block (s := S12288x10x256) S256x10x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S12288x256.size a
  hwx1_5 : ∀ i : grid1.Coords, EltTy.bits .f32 = 32 ∨ (Rect.block (s := S12288x256) S256x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S256x1.size a
  hwx2_6 : ∀ i : grid2.Coords, EltTy.bits .f32 = 32 ∨ (Rect.block (s := S256x1) S256x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x1.size a ≤ S8192x1.size a
  hwx2_8 : ∀ i : grid2.Coords, EltTy.bits .f32 = 32 ∨ (Rect.block (s := S8192x1) S2048x1.size (cc2_transform_8 i) (hinb2_8 i)).WholeWords (EltTy.packing .f32)

variable [Facts₀]

def gather_S1228800_S122880x10x1_S122880x10_n_0_n_n_0_2_1 : GatherDims S1228800 S122880x10x1 S122880x10 where
  offsetDims := []
  collapsedSliceDims := [0]
  operandBatchingDims := []
  startIndicesBatchingDims := []
  startIndexMap := [0]
  indexVectorDim := 2
  sliceSizes := ![1]
  wf := gather_S1228800_S122880x10x1_S122880x10_n_0_n_n_0_2_1_wf
def gather_S1000000x128_S122880x1_S122880x128_1_0_n_n_0_1_1128 : GatherDims S1000000x128 S122880x1 S122880x128 where
  offsetDims := [1]
  collapsedSliceDims := [0]
  operandBatchingDims := []
  startIndicesBatchingDims := []
  startIndexMap := [0]
  indexVectorDim := 1
  sliceSizes := ![1, 128]
  wf := gather_S1000000x128_S122880x1_S122880x128_1_0_n_n_0_1_1128_wf
def gather_S1000000x128_S122880x10x1_S122880x10x128_2_0_n_n_0_2_1128 : GatherDims S1000000x128 S122880x10x1 S122880x10x128 where
  offsetDims := [2]
  collapsedSliceDims := [0]
  operandBatchingDims := []
  startIndicesBatchingDims := []
  startIndexMap := [0]
  indexVectorDim := 2
  sliceSizes := ![1, 128]
  wf := gather_S1000000x128_S122880x10x1_S122880x10x128_2_0_n_n_0_2_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def gather_S122880x256_S12288x10x1_S12288x10x256_2_0_n_n_0_2_1256 : GatherDims S122880x256 S12288x10x1 S12288x10x256 where
  offsetDims := [2]
  collapsedSliceDims := [0]
  operandBatchingDims := []
  startIndicesBatchingDims := []
  startIndexMap := [0]
  indexVectorDim := 2
  sliceSizes := ![1, 256]
  wf := gather_S122880x256_S12288x10x1_S12288x10x256_2_0_n_n_0_2_1256_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v15) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x10x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x10x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S256x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v38) S2048x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S1228800x1 : Shape := ⟨2, ![1228800, 1]⟩
abbrev S1228800x128 : Shape := ⟨2, ![1228800, 128]⟩
abbrev S122880x128 : Shape := ⟨2, ![122880, 128]⟩
abbrev S122880x10x1 : Shape := ⟨3, ![122880, 10, 1]⟩
abbrev S122880x10x128 : Shape := ⟨3, ![122880, 10, 128]⟩
abbrev S122880x256 : Shape := ⟨2, ![122880, 256]⟩
abbrev S1x256 : Shape := ⟨2, ![1, 256]⟩
abbrev S12288x256 : Shape := ⟨2, ![12288, 256]⟩
abbrev S12288x10x1 : Shape := ⟨3, ![12288, 10, 1]⟩
abbrev S12288x10x256 : Shape := ⟨3, ![12288, 10, 256]⟩
abbrev S4096x256 : Shape := ⟨2, ![4096, 256]⟩
abbrev S8192x256 : Shape := ⟨2, ![8192, 256]⟩
abbrev S8192x1 : Shape := ⟨2, ![8192, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1228800, .i32⟩
  | .hbm, ⟨2, _⟩ => ⟨S122880x10, .i32⟩
  | .hbm, ⟨3, _⟩ => ⟨S12288x10, .i32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S_, .i32⟩
  | .hbm, ⟨17, _⟩ => ⟨S1228800, .i32⟩
  | .hbm, ⟨18, _⟩ => ⟨S1228800, .i1⟩
  | .hbm, ⟨19, _⟩ => ⟨S_, .i32⟩
  | .hbm, ⟨20, _⟩ => ⟨S1228800, .i32⟩
  | .hbm, ⟨21, _⟩ => ⟨S1228800, .i32⟩
  | .hbm, ⟨22, _⟩ => ⟨S1228800, .i32⟩
  | .hbm, ⟨23, _⟩ => ⟨S1228800x1, .i32⟩
  | .hbm, ⟨24, _⟩ => ⟨S1228800x128, .f32⟩
  | .hbm, ⟨25, _⟩ => ⟨S122880x128, .f32⟩
  | .hbm, ⟨26, _⟩ => ⟨S_, .i32⟩
  | .hbm, ⟨27, _⟩ => ⟨S122880x10, .i32⟩
  | .hbm, ⟨28, _⟩ => ⟨S122880x10, .i1⟩
  | .hbm, ⟨29, _⟩ => ⟨S_, .i32⟩
  | .hbm, ⟨30, _⟩ => ⟨S122880x10, .i32⟩
  | .hbm, ⟨31, _⟩ => ⟨S122880x10, .i32⟩
  | .hbm, ⟨32, _⟩ => ⟨S122880x10, .i32⟩
  | .hbm, ⟨33, _⟩ => ⟨S122880x10x1, .i32⟩
  | .hbm, ⟨34, _⟩ => ⟨S122880x10x128, .f32⟩
  | .hbm, ⟨35, _⟩ => ⟨S_, .f32⟩
  | .hbm, ⟨36, _⟩ => ⟨S122880x128, .f32⟩
  | .hbm, ⟨37, _⟩ => ⟨S_, .f32⟩
  | .hbm, ⟨38, _⟩ => ⟨S122880x128, .f32⟩
  | .hbm, ⟨39, _⟩ => ⟨S122880x128, .f32⟩
  | .hbm, ⟨40, _⟩ => ⟨S122880x256, .f32⟩
  | .hbm, ⟨41, _⟩ => ⟨S122880x256, .f32⟩
  | .hbm, ⟨42, _⟩ => ⟨S122880x256, .f32⟩
  | .hbm, ⟨43, _⟩ => ⟨S1x256, .f32⟩
  | .hbm, ⟨44, _⟩ => ⟨S122880x256, .f32⟩
  | .hbm, ⟨45, _⟩ => ⟨S122880x256, .f32⟩
  | .hbm, ⟨46, _⟩ => ⟨S_, .f32⟩
  | .hbm, ⟨47, _⟩ => ⟨S122880x256, .f32⟩
  | .hbm, ⟨48, _⟩ => ⟨S122880x256, .f32⟩
  | .hbm, ⟨49, _⟩ => ⟨S12288x256, .f32⟩
  | .hbm, ⟨50, _⟩ => ⟨S_, .i32⟩
  | .hbm, ⟨51, _⟩ => ⟨S12288x10, .i32⟩
  | .hbm, ⟨52, _⟩ => ⟨S12288x10, .i1⟩
  | .hbm, ⟨53, _⟩ => ⟨S_, .i32⟩
  | .hbm, ⟨54, _⟩ => ⟨S12288x10, .i32⟩
  | .hbm, ⟨55, _⟩ => ⟨S12288x10, .i32⟩
  | .hbm, ⟨56, _⟩ => ⟨S12288x10, .i32⟩
  | .hbm, ⟨57, _⟩ => ⟨S12288x10x1, .i32⟩
  | .hbm, ⟨58, _⟩ => ⟨S12288x10x256, .f32⟩
  | .hbm, ⟨59, _⟩ => ⟨S_, .f32⟩
  | .hbm, ⟨60, _⟩ => ⟨S12288x256, .f32⟩
  | .hbm, ⟨61, _⟩ => ⟨S_, .f32⟩
  | .hbm, ⟨62, _⟩ => ⟨S12288x256, .f32⟩
  | .hbm, ⟨63, _⟩ => ⟨S12288x256, .f32⟩
  | .hbm, ⟨64, _⟩ => ⟨S12288x256, .f32⟩
  | .hbm, ⟨65, _⟩ => ⟨S12288x256, .f32⟩
  | .hbm, ⟨66, _⟩ => ⟨S12288x256, .f32⟩
  | .hbm, ⟨67, _⟩ => ⟨S1x256, .f32⟩
  | .hbm, ⟨68, _⟩ => ⟨S12288x256, .f32⟩
  | .hbm, ⟨69, _⟩ => ⟨S12288x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S1x256, .f32⟩
  | .hbm, ⟨85, _⟩ => ⟨S8192x256, .f32⟩
  | .hbm, ⟨86, _⟩ => ⟨S8192x256, .f32⟩
  | .hbm, ⟨87, _⟩ => ⟨S_, .f32⟩
  | .hbm, ⟨88, _⟩ => ⟨S8192x256, .f32⟩
  | .hbm, ⟨89, _⟩ => ⟨S8192x256, .f32⟩
  | .hbm, ⟨90, _⟩ => ⟨S8192x1, .f32⟩
  | .hbm, ⟨91, _⟩ => ⟨S1x1, .f32⟩
  | .hbm, ⟨92, _⟩ => ⟨S8192x1, .f32⟩
  | .hbm, ⟨93, _⟩ => ⟨S8192x1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  bcast_S_S1228800 : S_.BroadcastsInDim S1228800 (![] : Fin 0 → Fin S1228800.rank)
  bcast_S1228800_S1228800x1_0 : S1228800.BroadcastsInDim S1228800x1 (![0] : Fin 1 → Fin S1228800x1.rank)
  slices_S1228800x128_S122880x128_0_0 : S1228800x128.Slices ![0, 0] S122880x128
  bcast_S_S122880x10 : S_.BroadcastsInDim S122880x10 (![] : Fin 0 → Fin S122880x10.rank)
  bcast_S122880x10_S122880x10x1_0_1 : S122880x10.BroadcastsInDim S122880x10x1 (![0, 1] : Fin 2 → Fin S122880x10x1.rank)
  reducesTo_S122880x10x128_S122880x128_d1 : S122880x10x128.ReducesTo [1] S122880x128
  h_S_ : 0 < S_.numel
  bcast_S_S122880x128 : S_.BroadcastsInDim S122880x128 (![] : Fin 0 → Fin S122880x128.rank)
  bcast_S256_S1x256_1 : S256.BroadcastsInDim S1x256 (![1] : Fin 1 → Fin S1x256.rank)
  bcast_S1x256_S122880x256_0_1 : S1x256.BroadcastsInDim S122880x256 (![0, 1] : Fin 2 → Fin S122880x256.rank)
  bcast_S_S122880x256 : S_.BroadcastsInDim S122880x256 (![] : Fin 0 → Fin S122880x256.rank)
  slices_S122880x256_S12288x256_0_0 : S122880x256.Slices ![0, 0] S12288x256
  bcast_S_S12288x10 : S_.BroadcastsInDim S12288x10 (![] : Fin 0 → Fin S12288x10.rank)
  bcast_S12288x10_S12288x10x1_0_1 : S12288x10.BroadcastsInDim S12288x10x1 (![0, 1] : Fin 2 → Fin S12288x10x1.rank)
  reducesTo_S12288x10x256_S12288x256_d1 : S12288x10x256.ReducesTo [1] S12288x256
  bcast_S_S12288x256 : S_.BroadcastsInDim S12288x256 (![] : Fin 0 → Fin S12288x256.rank)
  bcast_S1x256_S12288x256_0_1 : S1x256.BroadcastsInDim S12288x256 (![0, 1] : Fin 2 → Fin S12288x256.rank)
  slices_S12288x256_S4096x256_0_0 : S12288x256.Slices ![0, 0] S4096x256
  slices_S12288x256_S4096x256_4096_0 : S12288x256.Slices ![4096, 0] S4096x256
  slices_S12288x256_S4096x256_8192_0 : S12288x256.Slices ![8192, 0] S4096x256
  concatenates_S4096x256_S4096x256_S8192x256_d0 : Shape.Concatenates [S4096x256, S4096x256] S8192x256 0
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S1000000x128_S1228800x1_S1228800x128_1_0_n_n_0_1_1128_wf : GatherDims.WF S1000000x128 S1228800x1 S1228800x128 [1] [0] [] [0] [] 1 ![1, 128]
  gather_S1228800x128_S122880x10x1_S122880x10x128_2_0_n_n_0_2_1128_wf : GatherDims.WF S1228800x128 S122880x10x1 S122880x10x128 [2] [0] [] [0] [] 2 ![1, 128]
  dot_S122880x128_S128x256_S122880x256_1_0_0_1_n_n_wf : DotDims.WF S122880x128 S128x256 S122880x256 [1] [0] [0] [1] [] []
  gather_S122880x256_S12288x10x1_S12288x10x256_2_0_n_n_0_2_1256_wf : GatherDims.WF S122880x256 S12288x10x1 S12288x10x256 [2] [0] [] [0] [] 2 ![1, 256]
  dot_S12288x256_S256x256_S12288x256_1_0_0_1_n_n_wf : DotDims.WF S12288x256 S256x256 S12288x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []

variable [Facts₀]

def gather_S1000000x128_S1228800x1_S1228800x128_1_0_n_n_0_1_1128 : GatherDims S1000000x128 S1228800x1 S1228800x128 where
  offsetDims := [1]
  collapsedSliceDims := [0]
  operandBatchingDims := []
  startIndicesBatchingDims := []
  startIndexMap := [0]
  indexVectorDim := 1
  sliceSizes := ![1, 128]
  wf := gather_S1000000x128_S1228800x1_S1228800x128_1_0_n_n_0_1_1128_wf
def gather_S1228800x128_S122880x10x1_S122880x10x128_2_0_n_n_0_2_1128 : GatherDims S1228800x128 S122880x10x1 S122880x10x128 where
  offsetDims := [2]
  collapsedSliceDims := [0]
  operandBatchingDims := []
  startIndicesBatchingDims := []
  startIndexMap := [0]
  indexVectorDim := 2
  sliceSizes := ![1, 128]
  wf := gather_S1228800x128_S122880x10x1_S122880x10x128_2_0_n_n_0_2_1128_wf
def dot_S122880x128_S128x256_S122880x256_1_0_0_1_n_n : DotDims S122880x128 S128x256 S122880x256 where
  lhsContracting := [1]
  rhsContracting := [0]
  lhsNonContracting := [0]
  rhsNonContracting := [1]
  lhsBatch := []
  rhsBatch := []
  wf := dot_S122880x128_S128x256_S122880x256_1_0_0_1_n_n_wf
def gather_S122880x256_S12288x10x1_S12288x10x256_2_0_n_n_0_2_1256 : GatherDims S122880x256 S12288x10x1 S12288x10x256 where
  offsetDims := [2]
  collapsedSliceDims := [0]
  operandBatchingDims := []
  startIndicesBatchingDims := []
  startIndexMap := [0]
  indexVectorDim := 2
  sliceSizes := ![1, 256]
  wf := gather_S122880x256_S12288x10x1_S12288x10x256_2_0_n_n_0_2_1256_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  The two functions this certificate is about, entry by entry over the extended reals.

  * One neighbourhood-aggregation layer: output row `p` is the row `p` of the destination features times the self
    weights, plus the mean of the `Fa` neighbour rows of `p` times the neighbour weights, plus the bias. The mean is
    the sum of the neighbour rows divided by the value of the 32-bit float word of ten.
  * The link predictor: the entrywise product of two feature rows through two rectified affine layers and one
    affine layer with a single output column.
-/
import Idealize.ShloMosaic.PureOps.Ideal
import Idealize.ShloMosaic.Lib.ValueIdx

noncomputable section

open scoped BigOperators

namespace Cert.Sage

open Idealize.ShloMosaic

/-- The divisor of the mean over ten neighbours: the float word of `10.0`, read as an extended real. -/
abbrev tenE : EReal := Ideal.ofBits .f32 0x41200000#32

/-- Entry `(p, q)` of one aggregation layer: `xd · Ws + mean_f(xn) · Wn + b`. -/
def layerAt {N Fa D H : Nat} (xd : Fin N → Fin D → EReal) (xn : Fin N → Fin Fa → Fin D → EReal)
    (Ws Wn : Fin D → Fin H → EReal) (b : Fin H → EReal) (p : Fin N) (q : Fin H) : EReal :=
  ((∑ k : Fin D, xd p k * Ws k q) + ∑ k : Fin D, Ideal.div (∑ f : Fin Fa, xn p f k) tenE * Wn k q) + b q

/-- The first hidden row of the predictor at `p`: `relu((a ⊙ c) · W1 + b1)`. -/
def hidden1At {N H : Nat} (a c : Fin N → Fin H → EReal) (W1 : Fin H → Fin H → EReal) (b1 : Fin H → EReal)
    (p : Fin N) (j : Fin H) : EReal :=
  max ((∑ k : Fin H, (a p k * c p k) * W1 k j) + b1 j) 0

/-- The second hidden row of the predictor at `p`: `relu(h1 · W2 + b2)`. -/
def hidden2At {N H : Nat} (a c : Fin N → Fin H → EReal) (W1 : Fin H → Fin H → EReal) (b1 : Fin H → EReal)
    (W2 : Fin H → Fin H → EReal) (b2 : Fin H → EReal) (p : Fin N) (j : Fin H) : EReal :=
  max ((∑ k : Fin H, hidden1At a c W1 b1 p k * W2 k j) + b2 j) 0

/-- The score of pair `p`: `h2 · W3 + b3`, one output column. -/
def scoreAt {N H : Nat} (a c : Fin N → Fin H → EReal) (W1 : Fin H → Fin H → EReal) (b1 : Fin H → EReal)
    (W2 : Fin H → Fin H → EReal) (b2 : Fin H → EReal) (W3 : Fin H → EReal) (b3 : EReal) (p : Fin N) : EReal :=
  (∑ k : Fin H, hidden2At a c W1 b1 W2 b2 p k * W3 k) + b3

end Cert.Sage

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Layer0Value.lean ====
/-
  The first aggregation layer's output array after its pipeline has run over all 120 row blocks: entry (p, q) is the
  rectified layer value of row p of the destination features, the ten neighbour rows of p, the two weight matrices
  and the bias, each read from the arrays as the region finds them.

  First the body's arithmetic at one entry of a block (a sum over the ten neighbour slots divided by ten, two
  contractions over the 128 feature columns, the bias row, the rectification), then each window's block read as a
  rectangle of its array, then the 120 written-back blocks laid side by side.
-/
import proofs.«119072_j27779848471357_1_alg».proof.Proof.Gen.KernelIdeal.Frame
import proofs.«119072_j27779848471357_1_alg».proof.Proof.Spec
import proofs.«119072_j27779848471357_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Sage

/-- The matrix-unit product into the zero splat, at the ideal values, entry by entry. -/
theorem matmul_apply (lhs : FVec Ideal S1024x128 .bf16) (rhs : FVec Ideal S128x256 .bf16) (r : Fin 1024) (q : Fin 256) :
    matmul (F := Ideal) dot_S1024x128_S128x256_S1024x256_1_0_0_1_n_n none lhs rhs (constant (F := Ideal) S1024x256 .f32 0x00000000#32) (ix2 r q)
      = ∑ k : Fin 128, lhs (ix2 r k) * rhs (ix2 k q) :=
  RowDims.matmul_plain_zero_apply (M := 1024) (K := 128) (N := 256) none lhs rhs r q

/-- The sum over the ten neighbour slots, entry by entry. -/
theorem neighbour_sum_apply (src : FVec Ideal S1024x10x128 .f32) (hφ : FKind.Formats .f32)
    (hacc : (0x00000000#32 : BitVec 32) = FKind.add.neutral .f32 hφ) (r : Fin 1024) (c : Fin 128) :
    multiReduction (F := Ideal) .add [1] S1024x128 src 0x00000000#32 reduces_S1024x10x128_S1024x128 hφ hacc (ix2 r c)
      = ∑ f : Fin 10, src (ix3 r f c) := by
  refine (Ideal.multiReduction_add_single src _ reduces_S1024x10x128_S1024x128 hφ hacc (ix2 r c)).trans ?_
  refine Finset.sum_congr rfl fun f _ => congrArg src ?_
  funext a
  refine Fin.ext ?_
  match a with
  | ⟨0, _⟩ => rfl
  | ⟨1, _⟩ => rfl
  | ⟨2, _⟩ => rfl

/-- The body's arithmetic at one entry of its output block: the rectified layer value of the loaded blocks. -/
theorem pay_apply (v0 : FVec Ideal S1024x128 .bf16) (v2 : FVec Ideal S1024x10x128 .bf16) (v9 v11 : FVec Ideal S128x256 .f32)
    (v16 : FVec Ideal S256 .f32) (r : Fin 1024) (q : Fin 256) :
    k0_pay1 (F := Ideal) v0 v2 v9 v11 v16 (ix2 r q)
      = max (layerAt (fun r k => v0 (ix2 r k)) (fun r f k => v2 (ix3 r f k)) (fun k q => v9 (ix2 k q))
          (fun k q => v11 (ix2 k q)) (fun q => v16 (ix1 q)) r q) 0 := by
  unfold k0_pay1
  simp only [shapeCast_self]
  rw [truncf_apply, maximumf_apply, addf_apply, addf_apply, broadcast_apply, matmul_apply, matmul_apply,
    broadcastTo_1b_ab_apply, shapeCast_a_1a_apply]
  simp only [truncf_apply, divf_apply, broadcast_apply, neighbour_sum_apply, extf_apply]
  unfold layerAt
  refine congrArg₂ max (congrArg₂ (· + ·) (congrArg₂ (· + ·) rfl (Finset.sum_congr rfl fun k _ => ?_)) rfl) Ideal.ofBits_zero_f32
  exact congrArg (fun x => Ideal.div x tenE * v11 (ix2 k q)) (neighbour_sum_apply (extf .f32 v2 bitsLt_bf16_f32) (.inl rfl) rfl r k)

-- The TensorCore's buffer contents when the region is entered, over the extended reals.
variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero1 : (![0] : Fin 1 → Nat) = fun _ => 0 := funext fun a => by fin_cases a <;> rfl

/-- The whole output array: entry `(p, q)` is the rectified layer value of row `p`. -/
def layerOut (c : Dev nD) : S122880x256.Idx → EReal := fun i =>
  max (layerAt
    (fun p k => (V c main_v15 : S122880x128.Idx → EReal) (ix2 p k))
    (fun p f k => (V c main_v22 : S122880x10x128.Idx → EReal) (ix3 p f k))
    (fun k q => (V c main_arg4 : S128x256.Idx → EReal) (ix2 k q))
    (fun k q => (V c main_arg5 : S128x256.Idx → EReal) (ix2 k q))
    (fun q => (V c main_arg6 : S256.Idx → EReal) (ix1 q)) ⟨(i 0).val, (i 0).isLt⟩ ⟨(i 1).val, (i 1).isLt⟩) 0

/-- The printed index maps over the grid: the row-blocked windows are at block `t` on the row axis and block 0
    elsewhere, the weight and bias windows at block 0. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem row_lt (t : Fin cfg0.N) (r : Fin 1024) : t.val * 1024 + r.val < 122880 := by
  have ht : t.val < 120 := t.isLt
  have hr := r.isLt
  omega

/-- The destination-feature block at point `t` is rows `1024 t …` of the array. -/
theorem blk0_read (c : Dev nD) (t : Fin cfg0.N) (r : Fin 1024) (k : Fin 128) :
    iblk0 V c 0 t (ix2 r k) = (V c main_v15 : S122880x128.Idx → EReal) (ix2 ⟨t.val * 1024 + r.val, row_lt t r⟩ k) := by
  obtain ⟨e0, e1, -⟩ := index_facts t
  show V c main_v15 (((cfg0.win 0).blk t).view.emb (ix2 r k)) = _
  refine congrArg (V c main_v15) (funext fun a => Fin.ext ?_)
  match a with
  | ⟨0, _⟩ => show win0_0.index t (0 : Fin 2) * 1024 + 1 * r.val = t.val * 1024 + r.val; omega
  | ⟨1, _⟩ => show win0_0.index t (1 : Fin 2) * 128 + 1 * k.val = k.val; omega

/-- The neighbour-feature block at point `t` is rows `1024 t …` of the array, all ten slots. -/
theorem blk1_read (c : Dev nD) (t : Fin cfg0.N) (r : Fin 1024) (f : Fin 10) (k : Fin 128) :
    iblk0 V c 1 t (ix3 r f k)
      = (V c main_v22 : S122880x10x128.Idx → EReal) (ix3 ⟨t.val * 1024 + r.val, row_lt t r⟩ f k) := by
  obtain ⟨-, -, e0, e1, e2, -⟩ := index_facts t
  show V c main_v22 (((cfg0.win 1).blk t).view.emb (ix3 r f k)) = _
  refine congrArg (V c main_v22) (funext fun a => Fin.ext ?_)
  match a with
  | ⟨0, _⟩ => show win0_1.index t (0 : Fin 3) * 1024 + 1 * r.val = t.val * 1024 + r.val; omega
  | ⟨1, _⟩ => show win0_1.index t (1 : Fin 3) * 10 + 1 * f.val = f.val; omega
  | ⟨2, _⟩ => show win0_1.index t (2 : Fin 3) * 128 + 1 * k.val = k.val; omega

/-- The self-weight block at every point is the whole matrix. -/
theorem blk2_read (c : Dev nD) (t : Fin cfg0.N) (k : Fin 128) (q : Fin 256) :
    iblk0 V c 2 t (ix2 k q) = (V c main_arg4 : S128x256.Idx → EReal) (ix2 k q) := by
  obtain ⟨-, -, -, -, -, e0, e1, -⟩ := index_facts t
  show V c main_arg4 (((cfg0.win 2).blk t).view.emb (ix2 k q)) = _
  refine congrArg (V c main_arg4) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- The neighbour-weight block at every point is the whole matrix. -/
theorem blk3_read (c : Dev nD) (t : Fin cfg0.N) (k : Fin 128) (q : Fin 256) :
    iblk0 V c 3 t (ix2 k q) = (V c main_arg5 : S128x256.Idx → EReal) (ix2 k q) := by
  obtain ⟨-, -, -, -, -, -, -, e0, e1, -⟩ := index_facts t
  show V c main_arg5 (((cfg0.win 3).blk t).view.emb (ix2 k q)) = _
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- The bias block at every point is the whole vector. -/
theorem blk4_read (c : Dev nD) (t : Fin cfg0.N) (q : Fin 256) :
    iblk0 V c 4 t (ix1 q) = (V c main_arg6 : S256.Idx → EReal) (ix1 q) := by
  obtain ⟨-, -, -, -, -, -, -, -, -, e0, -⟩ := index_facts t
  show V c main_arg6 (((cfg0.win 4).blk t).view.emb (ix1 q)) = _
  refine congrArg (V c main_arg6) (funext fun a => Fin.ext ?_)
  match a with
  | ⟨0, _⟩ => show win0_4.index t (0 : Fin 1) * 256 + 1 * q.val = q.val; omega

/-- Entry `(r, q)` of the output block at point `t` is entry `(1024 t + r, q)` of the array. -/
theorem out_emb (t : Fin cfg0.N) (r : Fin 1024) (q : Fin 256) :
    ((cfg0.win 5).blk t).view.emb (ix2 r q) = (ix2 ⟨t.val * 1024 + r.val, row_lt t r⟩ q : S122880x256.Idx) := by
  obtain ⟨-, -, -, -, -, -, -, -, -, -, e0, e1⟩ := index_facts t
  refine funext fun a => Fin.ext ?_
  match a with
  | ⟨0, _⟩ => show win0_5.index t (0 : Fin 2) * 1024 + 1 * r.val = t.val * 1024 + r.val; omega
  | ⟨1, _⟩ => show win0_5.index t (1 : Fin 2) * 256 + 1 * q.val = q.val; omega

/-- What point `t` writes back is block `t` of the layer's output array. -/
theorem flushed_eq (c : Dev nD) (t : Fin cfg0.N) :
    (dat0 (F := Ideal) V c).flushed 5 t = ((cfg0.win 5).blk t).view.read (Elt Ideal) (layerOut V c) := by
  show (cfg0.win 5).cut (grid0.coords t) ((dat0 (F := Ideal) V c).after 5 t) = _
  rw [after0_5]
  unfold out0_5
  rw [View.canon_unit_zero zero2]
  simp only [View.ld_unit_zero (S := S1024x128) zero2, View.ld_unit_zero (S := S1024x10x128) zero3,
    View.ld_unit_zero (S := S128x256) zero2, View.ld_unit_zero (S := S256) zero1]
  funext j
  obtain ⟨r, q, rfl⟩ : ∃ (r : Fin 1024) (q : Fin 256), j = ix2 r q := ⟨j 0, j 1, eq_ix2 j⟩
  show k0_pay1 (F := Ideal) (iblk0 V c 0 t) (iblk0 V c 1 t) (iblk0 V c 2 t) (iblk0 V c 3 t) (iblk0 V c 4 t) (ix2 r q)
    = layerOut V c (((cfg0.win 5).blk t).view.emb (ix2 r q))
  rw [out_emb]
  refine (pay_apply _ _ _ _ _ r q).trans ?_
  unfold layerOut layerAt
  simp only [blk0_read, blk1_read, blk2_read, blk3_read, blk4_read]

/-- An index of the array is in point `t`'s block iff each coordinate is in the block's range on its axis. -/
theorem mem_blk (t : Fin cfg0.N) (i : S122880x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v23).slice (win0_5.rect t)).set ↔ _
  rw [View.set_slice_whole, Rect.mem_set_unit]
  exact Iff.rfl

/-- Row `p` of the array lies in the block of point `p / 1024`: the 120 blocks tile the array. -/
theorem covered (i : S122880x256.Idx) :
    ∃ t : Fin cfg0.N, (cfg0.win 5).flush t = true ∧ i ∈ ((cfg0.win 5).blk t).view.set := by
  have hi0 : (i 0).val < 122880 := (i 0).isLt
  have hi1 : (i 1).val < 256 := (i 1).isLt
  have hN : (i 0).val / 1024 < cfg0.N := by
    show (i 0).val / 1024 < grid0.N
    rw [N_0]; omega
  refine ⟨⟨(i 0).val / 1024, hN⟩, flush0_5 _, ?_⟩
  rw [mem_blk]
  obtain ⟨-, -, -, -, -, -, -, -, -, -, e0, e1⟩ := index_facts ⟨(i 0).val / 1024, hN⟩
  have e0' : win0_5.index ⟨(i 0).val / 1024, hN⟩ (0 : Fin 2) = (i 0).val / 1024 := e0
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    omega
  | ⟨1, _⟩ =>
    show win0_5.index ⟨(i 0).val / 1024, hN⟩ (1 : Fin 2) * 256 ≤ (i 1).val
      ∧ (i 1).val < win0_5.index ⟨(i 0).val / 1024, hN⟩ (1 : Fin 2) * 256 + 256
    omega

/-- The output array after the last grid point is the layer's output array. -/
theorem out_eq (c : Dev nD) : (dat0 (F := Ideal) V c).arrAt 5 cfg0.N = layerOut V c :=
  (dat0 (F := Ideal) V c).arrAt_eq_of_cover 5 (layerOut V c) (fun t _ => flushed_eq V c t) covered

/-- Entry `(p, q)` of the output array after the last grid point. -/
theorem out_apply (c : Dev nD) (p : Fin 122880) (q : Fin 256) :
    ((dat0 (F := Ideal) V c).arrAt 5 cfg0.N : S122880x256.Idx → EReal) (ix2 p q)
      = max (layerAt
          (fun p k => (V c main_v15 : S122880x128.Idx → EReal) (ix2 p k))
          (fun p f k => (V c main_v22 : S122880x10x128.Idx → EReal) (ix3 p f k))
          (fun k q => (V c main_arg4 : S128x256.Idx → EReal) (ix2 k q))
          (fun k q => (V c main_arg5 : S128x256.Idx → EReal) (ix2 k q))
          (fun q => (V c main_arg6 : S256.Idx → EReal) (ix1 q)) p q) 0 :=
  congrFun (out_eq V c) (ix2 p q)

end Cert.KernelIdeal.Layer0
end
-- ==== Proof.Layer1Value.lean ====
/-
  The second aggregation layer's output array after its pipeline has run over all 48 row blocks: entry (p, q) is the
  layer value (no rectification) of row p of the destination features, the ten neighbour rows of p, the two weight
  matrices and the bias, each read from the arrays as the region finds them.

  First the body's arithmetic at one entry of a block: the two products into the zero accumulator are sums over the
  contracted coordinate, the reduction over the neighbour axis is a sum of ten terms, the widenings and narrowings are
  the identity on the extended reals, and the bias row is read at the entry's column. Then the blocks: the row-blocked
  windows at point `t` hold rows `256 t … 256 t + 255` of their arrays, the weights' and the bias's windows hold their
  whole arrays, so what point `t` writes back is block `t` of one function of the arrays; the 48 blocks cover the
  output array.
-/
import proofs.«119072_j27779848471357_1_alg».proof.Proof.Gen.KernelIdeal.Frame
import proofs.«119072_j27779848471357_1_alg».proof.Proof.Spec
import proofs.«119072_j27779848471357_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Sage

/-- The sum over the ten neighbour rows: the reduction over the middle axis of a block, read at row `r`, column `k`. -/
theorem neighbourSum_apply (x : FVec Ideal S256x10x256 .f32) (r k : Fin 256) :
    multiReduction (F := Ideal) .add [1] S256x256 x 0x00000000#32 reduces_S256x10x256_S256x256 (.inl rfl) rfl (ix2 r k)
      = ∑ f : Fin 10, x (ix3 r f k) := by
  refine (Ideal.multiReduction_add_single x 0x00000000#32 reduces_S256x10x256_S256x256 (.inl rfl) rfl (ix2 r k)).trans ?_
  show ∑ f : Fin 10, x (reduces_S256x10x256_S256x256.lift (ix2 r k) f) = _
  refine Finset.sum_congr rfl fun f _ => congrArg x ?_
  funext a
  refine Fin.ext ?_
  match a with
  | ⟨0, _⟩ => rfl
  | ⟨1, _⟩ => rfl
  | ⟨2, _⟩ => rfl

/-- The bias row, cast to one row and broadcast over the block's rows, read at `(r, q)`. -/
theorem bias_apply (b : FVec Ideal S256 .f32) (r q : Fin 256) :
    broadcastTo S256x256 (shapeCast S1x256 b shapeCasts_S256_S1x256) broadcasts_S1x256_S256x256 (ix2 r q) = b (ix1 q) := by
  rw [broadcastTo_1b_ab_apply, shapeCast_a_1a_apply]

/-- A product of two 256 × 256 blocks into the zero accumulator, read at `(r, q)`. -/
theorem product_apply {φ₁ φ₂ : FTy} (lhs : FVec Ideal S256x256 φ₁) (rhs : FVec Ideal S256x256 φ₂) (r q : Fin 256) :
    matmul dot_S256x256_S256x256_S256x256_1_0_0_1_n_n none lhs rhs (constant S256x256 .f32 0x00000000#32) (ix2 r q)
      = ∑ k : Fin 256, lhs (ix2 r k) * rhs (ix2 k q) :=
  RowDims.matmul_plain_zero_apply (M := 256) (K := 256) (N := 256) none lhs rhs r q

/-- THE BODY'S ARITHMETIC AT AN ENTRY: the payload of the loaded blocks, read at row `r`, column `q`, is the layer value
    of those blocks. -/
theorem payload_apply (v0 : FVec Ideal S256x256 .bf16) (v2 : FVec Ideal S256x10x256 .bf16)
    (v9 v11 : FVec Ideal S256x256 .f32) (v16 : FVec Ideal S256 .f32) (r q : Fin 256) :
    k1_pay1 (F := Ideal) v0 v2 v9 v11 v16 (ix2 r q)
      = layerAt (fun r k => v0 (ix2 r k)) (fun r f k => v2 (ix3 r f k)) (fun k q => v9 (ix2 k q))
          (fun k q => v11 (ix2 k q)) (fun q => v16 (ix1 q)) r q := by
  unfold k1_pay1 layerAt
  simp only [shapeCast_self]
  rw [addf_apply, addf_apply, product_apply, product_apply, bias_apply]
  simp only [truncf_apply, divf_apply, broadcast_apply]
  refine congrArg₂ (· + ·) (congrArg₂ (· + ·) rfl (Finset.sum_congr rfl fun k _ => ?_)) rfl
  exact congrArg (fun s => Ideal.div s tenE * v11 (ix2 k q)) (neighbourSum_apply _ r k)

-- The TensorCore's buffer contents when the region is entered, over the extended reals.
variable (V : (c : Dev nD) → (b : Ref sig .tc) → Buf (Elt Ideal) ((c : Thread nD τ).loc b))

/-! ## From the blocks to the array -/

theorem zeroOffsets1 : (![0] : Fin 1 → Nat) = fun _ => 0 := funext fun a => by fin_cases a <;> rfl
theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- The whole output array as one function of the arrays the region finds: the layer value at every entry. -/
def layerArr (c : Dev nD) : S12288x256.Idx → EReal := fun i =>
  layerAt
    (fun p k => (V c main_v24 : S12288x256.Idx → EReal) (ix2 p k))
    (fun p f k => (V c main_v31 : S12288x10x256.Idx → EReal) (ix3 p f k))
    (fun k q => (V c main_arg7 : S256x256.Idx → EReal) (ix2 k q))
    (fun k q => (V c main_arg8 : S256x256.Idx → EReal) (ix2 k q))
    (fun q => (V c main_arg9 : S256.Idx → EReal) (ix1 q)) ⟨(i 0).val, (i 0).isLt⟩ ⟨(i 1).val, (i 1).isLt⟩

/-- The printed index maps over the 48 grid points: the row-blocked windows sit at block `t` on the row axis and at
    block `0` on the others; the weights' and the bias's windows sit at block `0` on every axis. -/
theorem index_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The destination features' block at point `t` holds rows `256 t … 256 t + 255` of the array. -/
theorem destBlock_apply (c : Dev nD) (t : Fin cfg1.N) (r k : Fin 256) (p : Fin 12288) (hp : p.val = t.val * 256 + r.val) :
    (iblk1 V c 0 t : S256x256.Idx → EReal) (ix2 r k) = (V c main_v24 : S12288x256.Idx → EReal) (ix2 p k) := by
  show (V c main_v24 : S12288x256.Idx → EReal) (((cfg1.win 0).blk t).view.emb (ix2 r k)) = _
  refine congrArg _ (funext fun a => Fin.ext ?_)
  obtain ⟨e0, e1, -⟩ := index_facts t
  match a with
  | ⟨0, _⟩ => show win1_0.index t (0 : Fin 2) * 256 + 1 * r.val = p.val; rw [e0, hp]; omega
  | ⟨1, _⟩ => show win1_0.index t (1 : Fin 2) * 256 + 1 * k.val = k.val; rw [e1]; omega

/-- The neighbour features' block at point `t` holds the ten neighbour rows of rows `256 t … 256 t + 255`. -/
theorem neighBlock_apply (c : Dev nD) (t : Fin cfg1.N) (r : Fin 256) (f : Fin 10) (k : Fin 256) (p : Fin 12288)
    (hp : p.val = t.val * 256 + r.val) :
    (iblk1 V c 1 t : S256x10x256.Idx → EReal) (ix3 r f k) = (V c main_v31 : S12288x10x256.Idx → EReal) (ix3 p f k) := by
  show (V c main_v31 : S12288x10x256.Idx → EReal) (((cfg1.win 1).blk t).view.emb (ix3 r f k)) = _
  refine congrArg _ (funext fun a => Fin.ext ?_)
  obtain ⟨-, -, e0, e1, e2, -⟩ := index_facts t
  match a with
  | ⟨0, _⟩ => show win1_1.index t (0 : Fin 3) * 256 + 1 * r.val = p.val; rw [e0, hp]; omega
  | ⟨1, _⟩ => show win1_1.index t (1 : Fin 3) * 10 + 1 * f.val = f.val; rw [e1]; omega
  | ⟨2, _⟩ => show win1_1.index t (2 : Fin 3) * 256 + 1 * k.val = k.val; rw [e2]; omega

/-- The self weights' block at every point is the whole matrix. -/
theorem selfWeights_apply (c : Dev nD) (t : Fin cfg1.N) (k q : Fin 256) :
    (iblk1 V c 2 t : S256x256.Idx → EReal) (ix2 k q) = (V c main_arg7 : S256x256.Idx → EReal) (ix2 k q) := by
  show (V c main_arg7 : S256x256.Idx → EReal) (((cfg1.win 2).blk t).view.emb (ix2 k q)) = _
  refine congrArg _ (funext fun a => Fin.ext ?_)
  obtain ⟨-, -, -, -, -, e0, e1, -⟩ := index_facts t
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The neighbour weights' block at every point is the whole matrix. -/
theorem neighWeights_apply (c : Dev nD) (t : Fin cfg1.N) (k q : Fin 256) :
    (iblk1 V c 3 t : S256x256.Idx → EReal) (ix2 k q) = (V c main_arg8 : S256x256.Idx → EReal) (ix2 k q) := by
  show (V c main_arg8 : S256x256.Idx → EReal) (((cfg1.win 3).blk t).view.emb (ix2 k q)) = _
  refine congrArg _ (funext fun a => Fin.ext ?_)
  obtain ⟨-, -, -, -, -, -, -, e0, e1, -⟩ := index_facts t
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias's block at every point is the whole row. -/
theorem biasBlock_apply (c : Dev nD) (t : Fin cfg1.N) (q : Fin 256) :
    (iblk1 V c 4 t : S256.Idx → EReal) (ix1 q) = (V c main_arg9 : S256.Idx → EReal) (ix1 q) := by
  show (V c main_arg9 : S256.Idx → EReal) (((cfg1.win 4).blk t).view.emb (ix1 q)) = _
  refine congrArg _ (funext fun a => Fin.ext ?_)
  obtain ⟨-, -, -, -, -, -, -, -, -, e0, -⟩ := index_facts t
  match a with
  | ⟨0, _⟩ => show win1_4.index t (0 : Fin 1) * 256 + 1 * q.val = q.val; rw [e0]; omega

/-- Entry `(r, q)` of the output's block at point `t` is entry `(256 t + r, q)` of the array. -/
theorem outBlock_emb (t : Fin cfg1.N) (r q : Fin 256) (p : Fin 12288) (hp : p.val = t.val * 256 + r.val) :
    (((cfg1.win 5).blk t).view.emb (ix2 r q) : S12288x256.Idx) = ix2 p q := by
  refine funext fun a => Fin.ext ?_
  obtain ⟨-, -, -, -, -, -, -, -, -, -, e0, e1⟩ := index_facts t
  match a with
  | ⟨0, _⟩ => show win1_5.index t (0 : Fin 2) * 256 + 1 * r.val = p.val; rw [e0, hp]; omega
  | ⟨1, _⟩ => show win1_5.index t (1 : Fin 2) * 256 + 1 * q.val = q.val; rw [e1]; omega

/-- WHAT POINT `t` WRITES BACK is block `t` of the layer's array. -/
theorem flushed_eq (c : Dev nD) (t : Fin cfg1.N) :
    (dat1 (F := Ideal) V c).flushed 5 t = ((cfg1.win 5).blk t).view.read (Elt Ideal) (layerArr V c) := by
  show (cfg1.win 5).cut (grid1.coords t) ((dat1 V c).after 5 t) = _
  rw [after1_5]
  unfold out1_5
  rw [View.canon_unit_zero zeroOffsets2]
  simp only [View.ld_unit_zero (S := S256x256) zeroOffsets2, View.ld_unit_zero (S := S256x10x256) zeroOffsets3,
    View.ld_unit_zero (S := S256) zeroOffsets1]
  funext j
  obtain ⟨r, q, rfl⟩ : ∃ (r q : Fin 256), j = ix2 r q := ⟨j 0, j 1, eq_ix2 j⟩
  have hN : cfg1.N = 48 := N_1
  have hp : t.val * 256 + r.val < 12288 := by have := t.isLt; have := r.isLt; omega
  show k1_pay1 (F := Ideal) (iblk1 V c 0 t) (iblk1 V c 1 t) (iblk1 V c 2 t) (iblk1 V c 3 t) (iblk1 V c 4 t) (ix2 r q)
    = layerArr V c (((cfg1.win 5).blk t).view.emb (ix2 r q))
  rw [outBlock_emb t r q ⟨t.val * 256 + r.val, hp⟩ rfl]
  refine (payload_apply _ _ _ _ _ r q).trans ?_
  unfold layerArr layerAt
  refine congrArg₂ (· + ·) (congrArg₂ (· + ·) (Finset.sum_congr rfl fun k _ => ?_) (Finset.sum_congr rfl fun k _ => ?_)) ?_
  · exact congrArg₂ (· * ·) (destBlock_apply V c t r k _ rfl) (selfWeights_apply V c t k q)
  · exact congrArg₂ (· * ·)
      (congrArg (Ideal.div · tenE) (Finset.sum_congr rfl fun f _ => neighBlock_apply V c t r f k _ rfl))
      (neighWeights_apply V c t k q)
  · exact biasBlock_apply V c t q

/-- An index of the array is in point `t`'s block iff each coordinate is in the block's range on its axis. -/
theorem mem_blk (t : Fin cfg1.N) (i : S12288x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v32).slice (win1_5.rect t)).set ↔ _
  rw [View.set_slice_whole, Rect.mem_set_unit]
  exact Iff.rfl

/-- Every entry of the array is in the block of the point its row selects: row `p` lies in block `p / 256`. -/
theorem covered (i : S12288x256.Idx) :
    ∃ t : Fin cfg1.N, (cfg1.win 5).flush t = true ∧ i ∈ ((cfg1.win 5).blk t).view.set := by
  have hN : cfg1.N = 48 := N_1
  have hi0 : (i 0).val < 12288 := (i 0).isLt
  have hi1 : (i 1).val < 256 := (i 1).isLt
  refine ⟨⟨(i 0).val / 256, by omega⟩, flush1_5 _, ?_⟩
  rw [mem_blk]
  obtain ⟨-, -, -, -, -, -, -, -, -, -, e0, e1⟩ := index_facts ⟨(i 0).val / 256, by omega⟩
  intro a
  match a with
  | ⟨0, _⟩ =>
    show win1_5.index _ (0 : Fin 2) * 256 ≤ (i 0).val ∧ (i 0).val < win1_5.index _ (0 : Fin 2) * 256 + 256
    rw [e0]; show (i 0).val / 256 * 256 ≤ (i 0).val ∧ (i 0).val < (i 0).val / 256 * 256 + 256; omega
  | ⟨1, _⟩ =>
    show win1_5.index _ (1 : Fin 2) * 256 ≤ (i 1).val ∧ (i 1).val < win1_5.index _ (1 : Fin 2) * 256 + 256
    rw [e1]; omega

/-- THE ARRAY after the last grid point is the layer's array. -/
theorem final (c : Dev nD) : (dat1 (F := Ideal) V c).arrAt 5 cfg1.N = layerArr V c :=
  (dat1 V c).arrAt_eq_of_cover 5 (layerArr V c) (fun t _ => flushed_eq V c t) covered

/-- Entry `(p, q)` of the output array after the last grid point. -/
theorem out_apply (c : Dev nD) (p : Fin 12288) (q : Fin 256) :
    ((dat1 (F := Ideal) V c).arrAt 5 cfg1.N : S12288x256.Idx → EReal) (ix2 p q)
      = layerAt
          (fun p k => (V c main_v24 : S12288x256.Idx → EReal) (ix2 p k))
          (fun p f k => (V c main_v31 : S12288x10x256.Idx → EReal) (ix3 p f k))
          (fun k q => (V c main_arg7 : S256x256.Idx → EReal) (ix2 k q))
          (fun k q => (V c main_arg8 : S256x256.Idx → EReal) (ix2 k q))
          (fun q => (V c main_arg9 : S256.Idx → EReal) (ix1 q)) p q := by
  rw [final V c]
  rfl

end Cert.KernelIdeal.Layer1

end
-- ==== Proof.ScoreValue.lean ====
/-
  The predictor's output array after its pipeline has run over all 4 row blocks: entry (p, 0) is the score of pair p,
  from row p of the two stacked feature arrays, the three weight matrices and the three biases, each read from the
  arrays as the region finds them.
-/
import proofs.«119072_j27779848471357_1_alg».proof.Proof.Gen.KernelIdeal.Frame
import proofs.«119072_j27779848471357_1_alg».proof.Proof.Spec
import proofs.«119072_j27779848471357_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Score

open Cert.KernelIdeal Cert.KernelIdeal.Gen Cert.Sage

-- The TensorCore's buffer contents when the region is entered, over the extended reals.
variable (V : (c : Dev nD) → (b : Ref sig .tc) → Buf (Elt Ideal) ((c : Thread nD τ).loc b))

/-- A product of a row block with a square weight matrix into the zero accumulator, entry by entry. -/
theorem matmul_hidden_apply {φ₁ φ₂ : FTy} (x : FVec Ideal S2048x256 φ₁) (W : FVec Ideal S256x256 φ₂) (r : Fin 2048) (j : Fin 256) :
    matmul dot_S2048x256_S256x256_S2048x256_1_0_0_1_n_n none x W (constant S2048x256 .f32 0x00000000#32) (ix2 r j)
      = ∑ k : Fin 256, x (ix2 r k) * W (ix2 k j) :=
  RowDims.matmul_plain_zero_apply (M := 2048) (K := 256) (N := 256) none x W r j

/-- A product of a row block with the one-column output weights into the zero accumulator, entry by entry. -/
theorem matmul_score_apply {φ₁ φ₂ : FTy} (x : FVec Ideal S2048x256 φ₁) (W : FVec Ideal S256x1 φ₂) (r : Fin 2048) (j : Fin 1) :
    matmul dot_S2048x256_S256x1_S2048x1_1_0_0_1_n_n none x W (constant S2048x1 .f32 0x00000000#32) (ix2 r j)
      = ∑ k : Fin 256, x (ix2 r k) * W (ix2 k j) :=
  RowDims.matmul_plain_zero_apply (M := 2048) (K := 256) (N := 1) none x W r j

/-- A length-`n` bias read as one row and repeated over the rows of a block, entry by entry. -/
theorem bias_row_apply {a n : Nat} (b : FVec Ideal ⟨1, ![n]⟩ .f32) (h1 : (⟨1, ![n]⟩ : Shape).ShapeCasts ⟨2, ![1, n]⟩)
    (h2 : (⟨2, ![1, n]⟩ : Shape).Broadcasts ⟨2, ![a, n]⟩) (r : Fin a) (j : Fin n) :
    broadcastTo ⟨2, ![a, n]⟩ (shapeCast ⟨2, ![1, n]⟩ b h1) h2 (ix2 r j) = b (ix1 j) := by
  rw [broadcastTo_1b_ab_apply, shapeCast_a_1a_apply]

/-- One rectified affine layer of the predictor on a row block, entry by entry. -/
theorem hidden_layer_apply {φ₁ φ₂ : FTy} (x : FVec Ideal S2048x256 φ₁) (W : FVec Ideal S256x256 φ₂) (b : FVec Ideal S256 .f32)
    (r : Fin 2048) (j : Fin 256) :
    maximumf (addf (matmul dot_S2048x256_S256x256_S2048x256_1_0_0_1_n_n none x W (constant S2048x256 .f32 0x00000000#32))
        (broadcastTo S2048x256 (shapeCast S1x256 b shapeCasts_S256_S1x256) broadcasts_S1x256_S2048x256))
      (broadcast S2048x256 (Scalar.ofBits (F := Ideal) .f32 0x00000000#32)) (ix2 r j)
      = max ((∑ k : Fin 256, x (ix2 r k) * W (ix2 k j)) + b (ix1 j)) 0 := by
  rw [maximumf_apply, addf_apply, matmul_hidden_apply, broadcast_apply]
  rw [show broadcastTo S2048x256 (shapeCast S1x256 b shapeCasts_S256_S1x256) broadcasts_S1x256_S2048x256 (ix2 r j) = b (ix1 j) from
    bias_row_apply b _ _ r j]
  rw [show (Scalar.ofBits (F := Ideal) .f32 0x00000000#32 : EReal) = 0 from Ideal.ofBits_zero_f32]

/-- The predictor's payload at row `r` of a block (its one column): the score of that row. -/
theorem pay_apply (v0 v2 : FVec Ideal S2048x256 .f32) (v6 : FVec Ideal S256x256 .f32) (v9 : FVec Ideal S256 .f32)
    (v16 : FVec Ideal S256x256 .f32) (v19 : FVec Ideal S256 .f32) (v26 : FVec Ideal S256x1 .f32) (v29 : FVec Ideal S1 .f32)
    (r : Fin 2048) (q : Fin 1) :
    k2_pay1 (F := Ideal) v0 v2 v6 v9 v16 v19 v26 v29 (ix2 r q)
      = scoreAt (fun r k => v0 (ix2 r k)) (fun r k => v2 (ix2 r k)) (fun k j => v6 (ix2 k j)) (fun j => v9 (ix1 j))
          (fun k j => v16 (ix2 k j)) (fun j => v19 (ix1 j)) (fun k => v26 (ix2 k 0)) (v29 (ix1 0)) r := by
  obtain rfl : q = 0 := Subsingleton.elim _ _
  unfold k2_pay1
  rw [addf_apply, matmul_score_apply, bias_row_apply (a := 2048) (n := 1)]
  simp only [truncf_apply, hidden_layer_apply, mulf_apply, shapeCast_self]
  rfl

/-- The score of a row depends on the two feature arrays only through that row. -/
theorem scoreAt_row_congr {N N' H : Nat} (a c : Fin N → Fin H → EReal) (a' c' : Fin N' → Fin H → EReal)
    (W1 : Fin H → Fin H → EReal) (b1 : Fin H → EReal) (W2 : Fin H → Fin H → EReal) (b2 : Fin H → EReal)
    (W3 : Fin H → EReal) (b3 : EReal) (p : Fin N) (p' : Fin N') (ha : a p = a' p') (hc : c p = c' p') :
    scoreAt a c W1 b1 W2 b2 W3 b3 p = scoreAt a' c' W1 b1 W2 b2 W3 b3 p' := by
  unfold scoreAt hidden2At hidden1At
  rw [ha, hc]

/-- The zero offsets of a rank-2 whole-buffer rectangle, as a constant function. -/
theorem offsets2_zero : (![0, 0] : Fin 2 → Nat) = fun _ => 0 := funext fun a => by fin_cases a <;> rfl

/-- The zero offset of a rank-1 whole-buffer rectangle, as a constant function. -/
theorem offsets1_zero : (![0] : Fin 1 → Nat) = fun _ => 0 := funext fun a => by fin_cases a <;> rfl

/-- The printed index maps over the four grid points: the two feature windows and the output window sit at row block
    `t`, column block `0`; the weight and bias windows sit at block `0` on every axis. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- The whole output array: entry `(p, 0)` is the score of pair `p`, from the arrays as the region finds them. -/
def scoreArr (c : Dev nD) : S8192x1.Idx → EReal := fun i =>
  scoreAt
    (fun p k => (V c main_v36 : S8192x256.Idx → EReal) (ix2 p k))
    (fun p k => (V c main_v37 : S8192x256.Idx → EReal) (ix2 p k))
    (fun k j => (V c main_arg10 : S256x256.Idx → EReal) (ix2 k j))
    (fun j => (V c main_arg11 : S256.Idx → EReal) (ix1 j))
    (fun k j => (V c main_arg12 : S256x256.Idx → EReal) (ix2 k j))
    (fun j => (V c main_arg13 : S256.Idx → EReal) (ix1 j))
    (fun k => (V c main_arg14 : S256x1.Idx → EReal) (ix2 k 0))
    ((V c main_arg15 : S1.Idx → EReal) (ix1 0)) (⟨(i 0).val, (i 0).isLt⟩ : Fin 8192)

/-- Row `r` of block `t` of the first feature array is row `t · 2048 + r` of the array. -/
theorem feat0_blk (c : Dev nD) (t : Fin cfg2.N) (r : Fin 2048) (k : Fin 256) (h : t.val * 2048 + r.val < 8192) :
    iblk2 (F := Ideal) V c 0 t (ix2 r k) = (V c main_v36 : S8192x256.Idx → EReal) (ix2 ⟨t.val * 2048 + r.val, h⟩ k) := by
  obtain ⟨e0, e1, -⟩ := idx_facts t
  show V c main_v36 (((cfg2.win 0).blk t).view.emb (ix2 r k)) = _
  refine congrArg _ (funext fun a => Fin.ext ?_)
  match a with
  | ⟨0, _⟩ => show win2_0.index t (0 : Fin 2) * 2048 + 1 * r.val = t.val * 2048 + r.val; omega
  | ⟨1, _⟩ => show win2_0.index t (1 : Fin 2) * 256 + 1 * k.val = k.val; omega

/-- Row `r` of block `t` of the second feature array is row `t · 2048 + r` of the array. -/
theorem feat1_blk (c : Dev nD) (t : Fin cfg2.N) (r : Fin 2048) (k : Fin 256) (h : t.val * 2048 + r.val < 8192) :
    iblk2 (F := Ideal) V c 1 t (ix2 r k) = (V c main_v37 : S8192x256.Idx → EReal) (ix2 ⟨t.val * 2048 + r.val, h⟩ k) := by
  obtain ⟨-, -, e0, e1, -⟩ := idx_facts t
  show V c main_v37 (((cfg2.win 1).blk t).view.emb (ix2 r k)) = _
  refine congrArg _ (funext fun a => Fin.ext ?_)
  match a with
  | ⟨0, _⟩ => show win2_1.index t (0 : Fin 2) * 2048 + 1 * r.val = t.val * 2048 + r.val; omega
  | ⟨1, _⟩ => show win2_1.index t (1 : Fin 2) * 256 + 1 * k.val = k.val; omega

/-- The first weight window's block is the whole matrix at every point. -/
theorem w1_blk (c : Dev nD) (t : Fin cfg2.N) (k j : Fin 256) :
    iblk2 (F := Ideal) V c 2 t (ix2 k j) = (V c main_arg10 : S256x256.Idx → EReal) (ix2 k j) := by
  obtain ⟨-, -, -, -, e0, e1, -⟩ := idx_facts t
  show V c main_arg10 (((cfg2.win 2).blk t).view.emb (ix2 k j)) = _
  refine congrArg _ (funext fun a => Fin.ext ?_)
  match a with
  | ⟨0, _⟩ => show win2_2.index t (0 : Fin 2) * 256 + 1 * k.val = k.val; omega
  | ⟨1, _⟩ => show win2_2.index t (1 : Fin 2) * 256 + 1 * j.val = j.val; omega

/-- The first bias window's block is the whole vector at every point. -/
theorem b1_blk (c : Dev nD) (t : Fin cfg2.N) (j : Fin 256) :
    iblk2 (F := Ideal) V c 3 t (ix1 j) = (V c main_arg11 : S256.Idx → EReal) (ix1 j) := by
  obtain ⟨-, -, -, -, -, -, e0, -⟩ := idx_facts t
  show V c main_arg11 (((cfg2.win 3).blk t).view.emb (ix1 j)) = _
  refine congrArg _ (funext fun a => Fin.ext ?_)
  match a with
  | ⟨0, _⟩ => show win2_3.index t (0 : Fin 1) * 256 + 1 * j.val = j.val; omega

/-- The second weight window's block is the whole matrix at every point. -/
theorem w2_blk (c : Dev nD) (t : Fin cfg2.N) (k j : Fin 256) :
    iblk2 (F := Ideal) V c 4 t (ix2 k j) = (V c main_arg12 : S256x256.Idx → EReal) (ix2 k j) := by
  obtain ⟨-, -, -, -, -, -, -, e0, e1, -⟩ := idx_facts t
  show V c main_arg12 (((cfg2.win 4).blk t).view.emb (ix2 k j)) = _
  refine congrArg _ (funext fun a => Fin.ext ?_)
  match a with
  | ⟨0, _⟩ => show win2_4.index t (0 : Fin 2) * 256 + 1 * k.val = k.val; omega
  | ⟨1, _⟩ => show win2_4.index t (1 : Fin 2) * 256 + 1 * j.val = j.val; omega

/-- The second bias window's block is the whole vector at every point. -/
theorem b2_blk (c : Dev nD) (t : Fin cfg2.N) (j : Fin 256) :
    iblk2 (F := Ideal) V c 5 t (ix1 j) = (V c main_arg13 : S256.Idx → EReal) (ix1 j) := by
  obtain ⟨-, -, -, -, -, -, -, -, -, e0, -⟩ := idx_facts t
  show V c main_arg13 (((cfg2.win 5).blk t).view.emb (ix1 j)) = _
  refine congrArg _ (funext fun a => Fin.ext ?_)
  match a with
  | ⟨0, _⟩ => show win2_5.index t (0 : Fin 1) * 256 + 1 * j.val = j.val; omega

/-- The output weight window's block is the whole column at every point. -/
theorem w3_blk (c : Dev nD) (t : Fin cfg2.N) (k : Fin 256) (j : Fin 1) :
    iblk2 (F := Ideal) V c 6 t (ix2 k j) = (V c main_arg14 : S256x1.Idx → EReal) (ix2 k j) := by
  obtain ⟨-, -, -, -, -, -, -, -, -, -, e0, e1, -⟩ := idx_facts t
  show V c main_arg14 (((cfg2.win 6).blk t).view.emb (ix2 k j)) = _
  refine congrArg _ (funext fun a => Fin.ext ?_)
  match a with
  | ⟨0, _⟩ => show win2_6.index t (0 : Fin 2) * 256 + 1 * k.val = k.val; omega
  | ⟨1, _⟩ => show win2_6.index t (1 : Fin 2) * 1 + 1 * j.val = j.val; omega

/-- The output bias window's block is the one scalar at every point. -/
theorem b3_blk (c : Dev nD) (t : Fin cfg2.N) (j : Fin 1) :
    iblk2 (F := Ideal) V c 7 t (ix1 j) = (V c main_arg15 : S1.Idx → EReal) (ix1 j) := by
  obtain ⟨-, -, -, -, -, -, -, -, -, -, -, -, e0, -⟩ := idx_facts t
  show V c main_arg15 (((cfg2.win 7).blk t).view.emb (ix1 j)) = _
  refine congrArg _ (funext fun a => Fin.ext ?_)
  match a with
  | ⟨0, _⟩ => show win2_7.index t (0 : Fin 1) * 1 + 1 * j.val = j.val; omega

/-- What point `t` writes back is block `t` of the score array. -/
theorem flushed_eq (c : Dev nD) (t : Fin cfg2.N) :
    (dat2 (F := Ideal) V c).flushed 8 t = ((cfg2.win 8).blk t).view.read (Elt Ideal) (scoreArr V c) := by
  show (cfg2.win 8).cut (grid2.coords t) ((dat2 V c).after 8 t) = _
  rw [after2_8]
  unfold out2_8
  rw [View.canon_unit_zero offsets2_zero]
  simp only [View.ld_unit_zero (S := S2048x256) offsets2_zero, View.ld_unit_zero (S := S256x256) offsets2_zero,
    View.ld_unit_zero (S := S256) offsets1_zero, View.ld_unit_zero (S := S256x1) offsets2_zero,
    View.ld_unit_zero (S := S1) offsets1_zero]
  obtain ⟨-, -, -, -, -, -, -, -, -, -, -, -, -, e0, e1⟩ := idx_facts t
  refine funext fun (y : S2048x1.Idx) => ?_
  obtain ⟨r, q, rfl⟩ : ∃ (r : Fin 2048) (q : Fin 1), y = ix2 r q := ⟨y 0, y 1, eq_ix2 y⟩
  show k2_pay1 (F := Ideal) (iblk2 V c 0 t) (iblk2 V c 1 t) (iblk2 V c 2 t) (iblk2 V c 3 t) (iblk2 V c 4 t)
      (iblk2 V c 5 t) (iblk2 V c 6 t) (iblk2 V c 7 t) (ix2 r q)
    = scoreArr V c (((cfg2.win 8).blk t).view.emb (ix2 r q))
  rw [pay_apply]
  -- the weights and biases are read whole
  have e2 : (fun k j => iblk2 (F := Ideal) V c 2 t (ix2 k j)) = fun k j => (V c main_arg10 : S256x256.Idx → EReal) (ix2 k j) :=
    funext fun k => funext fun j => w1_blk V c t k j
  have e3 : (fun j => iblk2 (F := Ideal) V c 3 t (ix1 j)) = fun j => (V c main_arg11 : S256.Idx → EReal) (ix1 j) :=
    funext fun j => b1_blk V c t j
  have e4 : (fun k j => iblk2 (F := Ideal) V c 4 t (ix2 k j)) = fun k j => (V c main_arg12 : S256x256.Idx → EReal) (ix2 k j) :=
    funext fun k => funext fun j => w2_blk V c t k j
  have e5 : (fun j => iblk2 (F := Ideal) V c 5 t (ix1 j)) = fun j => (V c main_arg13 : S256.Idx → EReal) (ix1 j) :=
    funext fun j => b2_blk V c t j
  have e6 : (fun k => iblk2 (F := Ideal) V c 6 t (ix2 k 0)) = fun k => (V c main_arg14 : S256x1.Idx → EReal) (ix2 k 0) :=
    funext fun k => w3_blk V c t k 0
  have e7 : iblk2 (F := Ideal) V c 7 t (ix1 0) = (V c main_arg15 : S1.Idx → EReal) (ix1 0) := b3_blk V c t 0
  rw [e2, e3, e4, e5, e6, e7]
  -- the row of the array this block row is
  have ht : t.val < 4 := t.isLt
  have hr : t.val * 2048 + r.val < 8192 := by have := r.isLt; omega
  have hrow : (⟨(((cfg2.win 8).blk t).view.emb (ix2 r q) 0).val, (((cfg2.win 8).blk t).view.emb (ix2 r q) 0).isLt⟩ : Fin 8192)
      = ⟨t.val * 2048 + r.val, hr⟩ :=
    Fin.ext (by show win2_8.index t (0 : Fin 2) * 2048 + 1 * r.val = t.val * 2048 + r.val; omega)
  unfold scoreArr
  rw [hrow]
  exact scoreAt_row_congr _ _ _ _ _ _ _ _ _ _ r _ (funext fun k => feat0_blk V c t r k hr) (funext fun k => feat1_blk V c t r k hr)

/-- An index of the output array lies in point `t`'s block exactly when each coordinate lies in the block's range. -/
theorem mem_blk (t : Fin cfg2.N) (i : S8192x1.Idx) :
    i ∈ ((cfg2.win 8).blk t).view.set ↔ ∀ a : Fin 2, win2_8.index t a * S2048x1.size a ≤ (i a).val
      ∧ (i a).val < win2_8.index t a * S2048x1.size a + S2048x1.size a := by
  show i ∈ ((View.whole main_v38).slice (win2_8.rect t)).set ↔ _
  rw [View.set_slice_whole, Rect.mem_set_unit]
  exact Iff.rfl

/-- Row `p` of the output array lies in the block of point `p / 2048`, and every point writes its block back. -/
theorem cover (i : S8192x1.Idx) :
    ∃ t : Fin cfg2.N, (cfg2.win 8).flush t = true ∧ i ∈ ((cfg2.win 8).blk t).view.set := by
  have hi0 : (i 0).val < 8192 := (i 0).isLt
  have hi1 : (i 1).val < 1 := (i 1).isLt
  have hN : (i 0).val / 2048 < cfg2.N := by show (i 0).val / 2048 < 4; omega
  obtain ⟨-, -, -, -, -, -, -, -, -, -, -, -, -, e0, e1⟩ := idx_facts ⟨(i 0).val / 2048, hN⟩
  refine ⟨⟨(i 0).val / 2048, hN⟩, flush2_8 _, ?_⟩
  rw [mem_blk]
  intro a
  match a with
  | ⟨0, _⟩ =>
    show win2_8.index ⟨(i 0).val / 2048, hN⟩ (0 : Fin 2) * 2048 ≤ (i 0).val
      ∧ (i 0).val < win2_8.index ⟨(i 0).val / 2048, hN⟩ (0 : Fin 2) * 2048 + 2048
    rw [e0]
    show (i 0).val / 2048 * 2048 ≤ (i 0).val ∧ (i 0).val < (i 0).val / 2048 * 2048 + 2048
    omega
  | ⟨1, _⟩ =>
    show win2_8.index ⟨(i 0).val / 2048, hN⟩ (1 : Fin 2) * 1 ≤ (i 1).val
      ∧ (i 1).val < win2_8.index ⟨(i 0).val / 2048, hN⟩ (1 : Fin 2) * 1 + 1
    rw [e1]
    omega

/-- The output array after the last grid point is the score array. -/
theorem arr_eq (c : Dev nD) : (dat2 (F := Ideal) V c).arrAt 8 cfg2.N = scoreArr V c :=
  (dat2 (F := Ideal) V c).arrAt_eq_of_cover 8 (scoreArr V c) (fun t _ => flushed_eq V c t) cover

/-- Entry `(p, 0)` of the output array after the last grid point. -/
theorem out_apply (c : Dev nD) (p : Fin 8192) :
    ((dat2 (F := Ideal) V c).arrAt 8 cfg2.N : S8192x1.Idx → EReal) (ix2 p 0)
      = scoreAt
          (fun p k => (V c main_v36 : S8192x256.Idx → EReal) (ix2 p k))
          (fun p k => (V c main_v37 : S8192x256.Idx → EReal) (ix2 p k))
          (fun k j => (V c main_arg10 : S256x256.Idx → EReal) (ix2 k j))
          (fun j => (V c main_arg11 : S256.Idx → EReal) (ix1 j))
          (fun k j => (V c main_arg12 : S256x256.Idx → EReal) (ix2 k j))
          (fun j => (V c main_arg13 : S256.Idx → EReal) (ix1 j))
          (fun k => (V c main_arg14 : S256x1.Idx → EReal) (ix2 k 0))
          ((V c main_arg15 : S1.Idx → EReal) (ix1 0)) p :=
  congrFun (arr_eq V c) (ix2 p 0)

end Cert.KernelIdeal.Score

end
-- ==== Proof.RefStages.lean ====
/-
  The reference's three stages read at an entry: after the first aggregation layer and its rectification, after the
  second aggregation layer, and the final scores. Each is the layer (or predictor) function of the stage's own
  inputs: the gathered destination rows, the gathered neighbour rows, the weights and the bias.
-/
import proofs.«119072_j27779848471357_1_alg».proof.Proof.Gen.ReferenceIdeal.Run
import proofs.«119072_j27779848471357_1_alg».proof.Proof.Gen.ReferenceIdeal.Read
import proofs.«119072_j27779848471357_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Stages

open Cert.ReferenceIdeal Cert.ReferenceIdeal.Read Cert.Sage

/-! ### Index identities

Each operation of the reference reads its operands at an index computed from the result's index. At an index given
by its coordinates, these computed indices are again indices given by coordinates: a matrix product at `(p, q)`
reads row `p` of the left factor and column `q` of the right one, the sum over the neighbour axis at `(p, k)`
reads `(p, f, k)`, and a bias broadcast along the rows reads entry `q`. -/

section Indices

variable (p : Fin 122880) (q : Fin 256) (k : Fin 128) (f : Fin 10)

theorem lidx_v18_ix : lidx_main_v18 (ix2 p q) k = ix2 p k :=
  funext fun a => Fin.ext (by match a with | ⟨0, _⟩ => rfl | ⟨1, _⟩ => rfl)
theorem ridx_v18_ix : ridx_main_v18 (ix2 p q) k = ix2 k q :=
  funext fun a => Fin.ext (by match a with | ⟨0, _⟩ => rfl | ⟨1, _⟩ => rfl)
theorem lidx_v19_ix : lidx_main_v19 (ix2 p q) k = ix2 p k :=
  funext fun a => Fin.ext (by match a with | ⟨0, _⟩ => rfl | ⟨1, _⟩ => rfl)
theorem ridx_v19_ix : ridx_main_v19 (ix2 p q) k = ix2 k q :=
  funext fun a => Fin.ext (by match a with | ⟨0, _⟩ => rfl | ⟨1, _⟩ => rfl)
theorem idx_v15_ix : idx_main_v15 (ix2 p k) f = ix3 p f k :=
  funext fun a => Fin.ext (by match a with | ⟨0, _⟩ => rfl | ⟨1, _⟩ => rfl | ⟨2, _⟩ => rfl)
theorem idx_v21_v22_ix : idx_main_v21 (idx_main_v22 (ix2 p q)) = ix1 q :=
  funext fun a => Fin.ext (by match a with | ⟨0, _⟩ => rfl)

end Indices

section Indices1

variable (p : Fin 12288) (q k : Fin 256) (f : Fin 10)

theorem lidx_v36_ix : lidx_main_v36 (ix2 p q) k = ix2 p k :=
  funext fun a => Fin.ext (by match a with | ⟨0, _⟩ => rfl | ⟨1, _⟩ => rfl)
theorem ridx_v36_ix : ridx_main_v36 (ix2 p q) k = ix2 k q :=
  funext fun a => Fin.ext (by match a with | ⟨0, _⟩ => rfl | ⟨1, _⟩ => rfl)
theorem lidx_v37_ix : lidx_main_v37 (ix2 p q) k = ix2 p k :=
  funext fun a => Fin.ext (by match a with | ⟨0, _⟩ => rfl | ⟨1, _⟩ => rfl)
theorem ridx_v37_ix : ridx_main_v37 (ix2 p q) k = ix2 k q :=
  funext fun a => Fin.ext (by match a with | ⟨0, _⟩ => rfl | ⟨1, _⟩ => rfl)
theorem idx_v33_ix : idx_main_v33 (ix2 p k) f = ix3 p f k :=
  funext fun a => Fin.ext (by match a with | ⟨0, _⟩ => rfl | ⟨1, _⟩ => rfl | ⟨2, _⟩ => rfl)
theorem idx_v39_v40_ix : idx_main_v39 (idx_main_v40 (ix2 p q)) = ix1 q :=
  funext fun a => Fin.ext (by match a with | ⟨0, _⟩ => rfl)

end Indices1

section Indices2

variable (p : Fin 8192) (j k : Fin 256)

theorem lidx_v48_ix : lidx_main_v48 (ix2 p j) k = ix2 p k :=
  funext fun a => Fin.ext (by match a with | ⟨0, _⟩ => rfl | ⟨1, _⟩ => rfl)
theorem ridx_v48_ix : ridx_main_v48 (ix2 p j) k = ix2 k j :=
  funext fun a => Fin.ext (by match a with | ⟨0, _⟩ => rfl | ⟨1, _⟩ => rfl)
theorem idx_v49_v50_ix : idx_main_v49 (idx_main_v50 (ix2 p j)) = ix1 j :=
  funext fun a => Fin.ext (by match a with | ⟨0, _⟩ => rfl)
theorem lidx_v53_ix : lidx_main_v53 (ix2 p j) k = ix2 p k :=
  funext fun a => Fin.ext (by match a with | ⟨0, _⟩ => rfl | ⟨1, _⟩ => rfl)
theorem ridx_v53_ix : ridx_main_v53 (ix2 p j) k = ix2 k j :=
  funext fun a => Fin.ext (by match a with | ⟨0, _⟩ => rfl | ⟨1, _⟩ => rfl)
theorem idx_v54_v55_ix : idx_main_v54 (idx_main_v55 (ix2 p j)) = ix1 j :=
  funext fun a => Fin.ext (by match a with | ⟨0, _⟩ => rfl)
theorem lidx_v58_ix : lidx_main_v58 (ix2 p 0) k = ix2 p k :=
  funext fun a => Fin.ext (by match a with | ⟨0, _⟩ => rfl | ⟨1, _⟩ => rfl)
theorem ridx_v58_ix : ridx_main_v58 (ix2 p 0) k = ix2 k 0 :=
  funext fun a => Fin.ext (by match a with | ⟨0, _⟩ => rfl | ⟨1, _⟩ => rfl)
theorem idx_v59_v60_ix : idx_main_v59 (idx_main_v60 (ix2 p 0)) = ix1 0 :=
  funext fun a => Fin.ext (by match a with | ⟨0, _⟩ => rfl)

end Indices2

/-! ### The three stages -/

/-- The rectified first layer at `(p, q)`. -/
theorem layer0_apply (x0 : (⟨S1000000x128, .f32⟩ : BufTy).Contents (Elt Ideal)) (x1 : (⟨S1228800, .i32⟩ : BufTy).Contents (Elt Ideal)) (x2 : (⟨S122880x10, .i32⟩ : BufTy).Contents (Elt Ideal))
    (x4 x5 : (⟨S128x256, .f32⟩ : BufTy).Contents (Elt Ideal)) (x6 : (⟨S256, .f32⟩ : BufTy).Contents (Elt Ideal))
    (p : Fin 122880) (q : Fin 256) :
    (val_main_v24 (F := Ideal) x0 x1 x2 x4 x5 x6 : S122880x256.Idx → EReal) (ix2 p q)
      = max (layerAt
          (fun p k => (val_main_v7 (F := Ideal) x0 x1 : S122880x128.Idx → EReal) (ix2 p k))
          (fun p f k => (val_main_v14 (F := Ideal) x0 x1 x2 : S122880x10x128.Idx → EReal) (ix3 p f k))
          (fun k q => (x4 : S128x256.Idx → EReal) (ix2 k q))
          (fun k q => (x5 : S128x256.Idx → EReal) (ix2 k q))
          (fun q => (x6 : S256.Idx → EReal) (ix1 q)) p q) 0 := by
  unfold layerAt
  -- the maximum, the two sums, the two products, the mean and the bias, outermost first, then the indices they read
  simp only [val_main_v24_apply, val_main_v23_apply, val_main_v20_apply, val_main_v18_apply, val_main_v19_apply,
    val_main_v17_apply, val_main_v15_apply, val_main_v16_apply, val_main_v22_apply, val_main_v21_apply,
    val_main_call0_v0_apply, val_main_call0_cst_apply, val_main_cst_apply, val_main_cst_3_apply,
    lidx_v18_ix, ridx_v18_ix, lidx_v19_ix, ridx_v19_ix, idx_v15_ix, idx_v21_v22_ix,
    Ideal.addf_def, Ideal.hostDivf_def, Ideal.maximumf_def, Ideal.ofBits_def, Ideal.ofBits_zero_f32, zero_add]

/-- The second layer at `(p, q)`. -/
theorem layer1_apply (x0 : (⟨S1000000x128, .f32⟩ : BufTy).Contents (Elt Ideal)) (x1 : (⟨S1228800, .i32⟩ : BufTy).Contents (Elt Ideal)) (x2 : (⟨S122880x10, .i32⟩ : BufTy).Contents (Elt Ideal)) (x3 : (⟨S12288x10, .i32⟩ : BufTy).Contents (Elt Ideal))
    (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal))
    (p : Fin 12288) (q : Fin 256) :
    (val_main_v41 (F := Ideal) x0 x1 x2 x3 x4 x5 x6 x7 x8 x9 : S12288x256.Idx → EReal) (ix2 p q)
      = layerAt
          (fun p k => (val_main_v25 (F := Ideal) x0 x1 x2 x4 x5 x6 : S12288x256.Idx → EReal) (ix2 p k))
          (fun p f k => (val_main_v32 (F := Ideal) x0 x1 x2 x3 x4 x5 x6 : S12288x10x256.Idx → EReal) (ix3 p f k))
          (fun k q => (x7 : S256x256.Idx → EReal) (ix2 k q))
          (fun k q => (x8 : S256x256.Idx → EReal) (ix2 k q))
          (fun q => (x9 : S256.Idx → EReal) (ix1 q)) p q := by
  unfold layerAt
  simp only [val_main_v41_apply, val_main_v38_apply, val_main_v36_apply, val_main_v37_apply,
    val_main_v35_apply, val_main_v33_apply, val_main_v34_apply, val_main_v40_apply, val_main_v39_apply,
    val_main_cst_6_apply, val_main_cst_7_apply,
    lidx_v36_ix, ridx_v36_ix, lidx_v37_ix, ridx_v37_ix, idx_v33_ix, idx_v39_v40_ix,
    Ideal.addf_def, Ideal.hostDivf_def, Ideal.ofBits_def, Ideal.ofBits_zero_f32, zero_add]

/-- The predictor's first hidden layer at `(p, j)`: the rectified affine image of the entrywise product of the two rows. -/
theorem hidden1_apply (x0 : (⟨S1000000x128, .f32⟩ : BufTy).Contents (Elt Ideal)) (x1 : (⟨S1228800, .i32⟩ : BufTy).Contents (Elt Ideal)) (x2 : (⟨S122880x10, .i32⟩ : BufTy).Contents (Elt Ideal)) (x3 : (⟨S12288x10, .i32⟩ : BufTy).Contents (Elt Ideal))
    (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (p : Fin 8192) (j : Fin 256) :
    (val_main_v52 (F := Ideal) x0 x1 x2 x3 x4 x5 x6 x7 x8 x9 x10 x11 : S8192x256.Idx → EReal) (ix2 p j)
      = hidden1At
          (fun p k => (val_main_v45 (F := Ideal) x0 x1 x2 x3 x4 x5 x6 x7 x8 x9 : S8192x256.Idx → EReal) (ix2 p k))
          (fun p k => (val_main_v46 (F := Ideal) x0 x1 x2 x3 x4 x5 x6 x7 x8 x9 : S8192x256.Idx → EReal) (ix2 p k))
          (fun k j => (x10 : S256x256.Idx → EReal) (ix2 k j))
          (fun j => (x11 : S256.Idx → EReal) (ix1 j)) p j := by
  unfold hidden1At
  simp only [val_main_v52_apply, val_main_v51_apply, val_main_v48_apply, val_main_v47_apply,
    val_main_v50_apply, val_main_v49_apply, val_main_call1_v0_apply, val_main_call1_cst_apply,
    lidx_v48_ix, ridx_v48_ix, idx_v49_v50_ix,
    Ideal.addf_def, Ideal.mulf_def, Ideal.maximumf_def, Ideal.ofBits_def, Ideal.ofBits_zero_f32]

/-- The predictor's second hidden layer at `(p, j)`: the rectified affine image of the first hidden row. -/
theorem hidden2_apply (x0 : (⟨S1000000x128, .f32⟩ : BufTy).Contents (Elt Ideal)) (x1 : (⟨S1228800, .i32⟩ : BufTy).Contents (Elt Ideal)) (x2 : (⟨S122880x10, .i32⟩ : BufTy).Contents (Elt Ideal)) (x3 : (⟨S12288x10, .i32⟩ : BufTy).Contents (Elt Ideal))
    (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal))
    (p : Fin 8192) (j : Fin 256) :
    (val_main_v57 (F := Ideal) x0 x1 x2 x3 x4 x5 x6 x7 x8 x9 x10 x11 x12 x13 : S8192x256.Idx → EReal) (ix2 p j)
      = hidden2At
          (fun p k => (val_main_v45 (F := Ideal) x0 x1 x2 x3 x4 x5 x6 x7 x8 x9 : S8192x256.Idx → EReal) (ix2 p k))
          (fun p k => (val_main_v46 (F := Ideal) x0 x1 x2 x3 x4 x5 x6 x7 x8 x9 : S8192x256.Idx → EReal) (ix2 p k))
          (fun k j => (x10 : S256x256.Idx → EReal) (ix2 k j))
          (fun j => (x11 : S256.Idx → EReal) (ix1 j))
          (fun k j => (x12 : S256x256.Idx → EReal) (ix2 k j))
          (fun j => (x13 : S256.Idx → EReal) (ix1 j)) p j := by
  unfold hidden2At
  simp only [val_main_v57_apply, val_main_v56_apply, val_main_v53_apply,
    val_main_v55_apply, val_main_v54_apply, val_main_call2_v0_apply, val_main_call2_cst_apply,
    lidx_v53_ix, ridx_v53_ix, idx_v54_v55_ix, hidden1_apply,
    Ideal.addf_def, Ideal.maximumf_def, Ideal.ofBits_def, Ideal.ofBits_zero_f32]

/-- The score of pair `p`. -/
theorem score_apply (x0 : (⟨S1000000x128, .f32⟩ : BufTy).Contents (Elt Ideal)) (x1 : (⟨S1228800, .i32⟩ : BufTy).Contents (Elt Ideal)) (x2 : (⟨S122880x10, .i32⟩ : BufTy).Contents (Elt Ideal)) (x3 : (⟨S12288x10, .i32⟩ : BufTy).Contents (Elt Ideal))
    (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal))
    (x14 : (⟨S256x1, .f32⟩ : BufTy).Contents (Elt Ideal)) (x15 : (⟨S1, .f32⟩ : BufTy).Contents (Elt Ideal))
    (p : Fin 8192) :
    (val_main_v61 (F := Ideal) x0 x1 x2 x3 x4 x5 x6 x7 x8 x9 x10 x11 x12 x13 x14 x15 : S8192x1.Idx → EReal) (ix2 p 0)
      = scoreAt
          (fun p k => (val_main_v45 (F := Ideal) x0 x1 x2 x3 x4 x5 x6 x7 x8 x9 : S8192x256.Idx → EReal) (ix2 p k))
          (fun p k => (val_main_v46 (F := Ideal) x0 x1 x2 x3 x4 x5 x6 x7 x8 x9 : S8192x256.Idx → EReal) (ix2 p k))
          (fun k j => (x10 : S256x256.Idx → EReal) (ix2 k j))
          (fun j => (x11 : S256.Idx → EReal) (ix1 j))
          (fun k j => (x12 : S256x256.Idx → EReal) (ix2 k j))
          (fun j => (x13 : S256.Idx → EReal) (ix1 j))
          (fun k => (x14 : S256x1.Idx → EReal) (ix2 k 0))
          ((x15 : S1.Idx → EReal) (ix1 0)) p := by
  unfold scoreAt
  simp only [val_main_v61_apply, val_main_v58_apply, val_main_v60_apply, val_main_v59_apply,
    lidx_v58_ix, ridx_v58_ix, idx_v59_v60_ix, hidden2_apply, Ideal.addf_def]

end Cert.ReferenceIdeal.Stages

end
-- ==== Proof.LibRowGather3.lean ====
/-
  Dimension numbers over symbolic extents, read in coordinates: a row gather at a rank-3 array of start indices —
  `x[idx]` of a table `[N, C]` at an integer array `idx : [R, Fa]`, the start indices carried as `[R, Fa, 1]` — reads
  row `idx (r, f)` of the table, the start index taken signed and clamped into `[0, N − 1]`: result entry `(r, f, c)`
  is the table's entry at that row and column `c`.
-/
import Idealize.ShloMosaic.PureOps.Ideal
import Idealize.ShloMosaic.PureOps.Ideal.Laws
import Idealize.ShloMosaic.Lib.ValueIdx
import proofs.«119072_j27779848471357_1_alg».proof.Proof.LibRowDims

noncomputable section

namespace Idealize.ShloMosaic.RowDims

open Idealize.ShloMosaic Idealize.ShloMosaic.ValueIdx

/-! ## A row gather at a rank-3 array of start indices -/

/-- The dimension numbers of `x[idx]` for a table `[N, C]`, start indices `[R, Fa, 1]` and result `[R, Fa, C]`. -/
abbrev rowGather3 (N C R Fa : Nat)
    (wf : GatherDims.WF ⟨2, ![N, C]⟩ ⟨3, ![R, Fa, 1]⟩ ⟨3, ![R, Fa, C]⟩ [2] [0] [] [0] [] 2 ![1, C]) :
    GatherDims ⟨2, ![N, C]⟩ ⟨3, ![R, Fa, 1]⟩ ⟨3, ![R, Fa, C]⟩ where
  offsetDims := [2]
  collapsedSliceDims := [0]
  operandBatchingDims := []
  startIndicesBatchingDims := []
  startIndexMap := [0]
  indexVectorDim := 2
  sliceSizes := ![1, C]
  wf := wf

/-- The result entry `(r, f, c)` reads its one start-index component at `(r, f, 0)` of the start indices. -/
theorem rowGather3_siIdx {N C R Fa : Nat}
    (wf : GatherDims.WF ⟨2, ![N, C]⟩ ⟨3, ![R, Fa, 1]⟩ ⟨3, ![R, Fa, C]⟩ [2] [0] [] [0] [] 2 ![1, C])
    (r : Fin R) (f : Fin Fa) (c : Fin C) :
    (rowGather3 N C R Fa wf).siIdx (ix3 r f c) ⟨List.idxOf (0 : Fin 2) (rowGather3 N C R Fa wf).startIndexMap,
      List.idxOf_lt_length_iff.2 (List.mem_singleton.mpr rfl)⟩ = ix3 r f 0 := by
  funext b; refine Fin.ext ?_
  match b with
  | ⟨0, _⟩ => rfl
  | ⟨1, _⟩ => rfl
  | ⟨2, _⟩ => rfl

/-- On the table's row axis (collapsed, named by the start index map) the operand index is the clamped start alone:
    no batching coordinate, no offset coordinate, and the slice size `1` leaves the clamp's upper bound `N − 1`. -/
theorem rowGather3_operandIdx_row {N C R Fa w : Nat} (hN : 0 < N)
    (wf : GatherDims.WF ⟨2, ![N, C]⟩ ⟨3, ![R, Fa, 1]⟩ ⟨3, ![R, Fa, C]⟩ [2] [0] [] [0] [] 2 ![1, C])
    (idx : IVec ⟨3, ![R, Fa, 1]⟩ w) (r : Fin R) (f : Fin Fa) (c : Fin C) :
    ((rowGather3 N C R Fa wf).operandIdx (ix3 r f c) idx 0).val = (clampRow N hN (idx (ix3 r f 0))).val := by
  show (rowGather3 N C R Fa wf).start (ix3 r f c) idx 0 + (rowGather3 N C R Fa wf).batchCoord (ix3 r f c) 0
    + (rowGather3 N C R Fa wf).offCoord (ix3 r f c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather3 N C R Fa wf).startIndexMap from List.mem_singleton.mpr rfl)]
  rw [rowGather3_siIdx wf r f c]
  rfl

/-- On the table's column axis (the offset axis, not named by the start index map) the operand index is the offset
    coordinate alone: the result's last coordinate. -/
theorem rowGather3_operandIdx_col {N C R Fa w : Nat}
    (wf : GatherDims.WF ⟨2, ![N, C]⟩ ⟨3, ![R, Fa, 1]⟩ ⟨3, ![R, Fa, C]⟩ [2] [0] [] [0] [] 2 ![1, C])
    (idx : IVec ⟨3, ![R, Fa, 1]⟩ w) (r : Fin R) (f : Fin Fa) (c : Fin C) :
    ((rowGather3 N C R Fa wf).operandIdx (ix3 r f c) idx 1).val = c.val := by
  show (rowGather3 N C R Fa wf).start (ix3 r f c) idx 1 + (rowGather3 N C R Fa wf).batchCoord (ix3 r f c) 1
    + (rowGather3 N C R Fa wf).offCoord (ix3 r f c) 1 = _
  rw [GatherDims.batchCoord_eq_zero _ _ _ List.not_mem_nil]
  unfold GatherDims.start
  rw [dif_neg (show ¬ (1 : Fin 2) ∈ (rowGather3 N C R Fa wf).startIndexMap from
    fun h => absurd (congrArg Fin.val (List.mem_singleton.mp h)) Nat.one_ne_zero)]
  simp only [Nat.add_zero, Nat.zero_add]
  rfl

/-- The gather read at `(r, f, c)`: the table at row `clampRow (idx (r, f, 0))`, column `c`. -/
theorem rowGather3_apply {α : Type} {N C R Fa w : Nat} (hN : 0 < N)
    (wf : GatherDims.WF ⟨2, ![N, C]⟩ ⟨3, ![R, Fa, 1]⟩ ⟨3, ![R, Fa, C]⟩ [2] [0] [] [0] [] 2 ![1, C])
    (x : (⟨2, ![N, C]⟩ : Shape).Idx → α) (idx : IVec ⟨3, ![R, Fa, 1]⟩ w) (r : Fin R) (f : Fin Fa) (c : Fin C) :
    Host.gather (rowGather3 N C R Fa wf) x idx (ix3 r f c) = x (ix2 (clampRow N hN (idx (ix3 r f 0))) c) := by
  unfold Host.gather
  congr 1
  funext a
  refine Fin.ext ?_
  match a with
  | ⟨0, _⟩ => exact rowGather3_operandIdx_row hN wf idx r f c
  | ⟨1, _⟩ => exact rowGather3_operandIdx_col wf idx r f c

end Idealize.ShloMosaic.RowDims

end
-- ==== Proof.GatherRows.lean ====
/-
  The two gathered inputs of the first layer are the same rows of the feature table in both programs.

  The kernel's program slices the node ids to the first 122880 and gathers the table's rows at them; the reference
  gathers the table's rows at all 1228800 node ids and slices the first 122880 rows: both read row
  `clamp(wrap(ids p))` of the table. For the neighbours the kernel's program first gathers node ids at the
  (wrapped, clamped) neighbour positions and then the table's rows at those ids; the reference gathers rows of its
  already gathered 1228800-row array at the neighbour positions: both read row
  `clamp(wrap(ids (clamp(wrap(pos p f)))))` of the table. A start index is wrapped by adding the axis length when
  it is negative, then read signed and clamped into the axis; the float format change of the table is the identity.
-/
import proofs.«119072_j27779848471357_1_alg».proof.Proof.Gen.KernelIdeal.Frame
import proofs.«119072_j27779848471357_1_alg».proof.Proof.Gen.ReferenceIdeal.Run
import proofs.«119072_j27779848471357_1_alg».proof.Proof.Gen.ReferenceIdeal.Read
import proofs.«119072_j27779848471357_1_alg».proof.Proof.LibRowDims
import proofs.«119072_j27779848471357_1_alg».proof.Proof.LibRowGather3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx

namespace Cert.GatherRows

open Idealize.ShloMosaic.RowDims (clampRow)

/-! ## A start index wrapped into its axis -/

/-- A start index wrapped into an axis of length `n`: `n` is added when the index, read signed, is negative. -/
def wrap (n v : BitVec 32) : BitVec 32 := Scalar.select (IntOp.cmpi .slt v 0#32) (IntOp.addi v n) v

/-- The wrapped index array read at an index: the `select` on "negative" between the index plus the axis length and
    the index itself, the zero and the axis length each broadcast from a scalar, is `wrap` of the entry. -/
theorem wrapVec_apply {t : Shape} (dims : Fin (⟨0, ![]⟩ : Shape).rank → Fin t.rank)
    (hz : (⟨0, ![]⟩ : Shape).BroadcastsInDim t dims) (n : BitVec 32) (s : IVec t 32) (i : t.Idx) :
    select (cmpi .slt s (broadcastInDim t dims hz (constantI ⟨0, ![]⟩ 32 0#32)))
        (addi s (broadcastInDim t dims hz (constantI ⟨0, ![]⟩ 32 n))) s i = wrap n (s i) := rfl

/-! ## The printed gathers read at an index -/

section Records
variable {α : Type} {w : Nat}

/-- The kernel program's gather of table rows at `[122880, 1]` start indices. -/
theorem kGatherDst_apply (x : Cert.KernelIdeal.S1000000x128.Idx → α) (idx : IVec Cert.KernelIdeal.S122880x1 w)
    (r : Fin 122880) (c : Fin 128) :
    Host.gather Cert.KernelIdeal.gather_S1000000x128_S122880x1_S122880x128_1_0_n_n_0_1_1128 x idx (ix2 r c)
      = x (ix2 (clampRow 1000000 (by decide) (idx (ix2 r 0))) c) := by
  exact RowDims.rowGather_apply _ Cert.KernelIdeal.Gen.gather_S1000000x128_S122880x1_S122880x128_1_0_n_n_0_1_1128_wf x idx r c

/-- The reference's gather of table rows at `[1228800, 1]` start indices. -/
theorem rGatherAll_apply (x : Cert.ReferenceIdeal.S1000000x128.Idx → α) (idx : IVec Cert.ReferenceIdeal.S1228800x1 w)
    (r : Fin 1228800) (c : Fin 128) :
    Host.gather Cert.ReferenceIdeal.gather_S1000000x128_S1228800x1_S1228800x128_1_0_n_n_0_1_1128 x idx (ix2 r c)
      = x (ix2 (clampRow 1000000 (by decide) (idx (ix2 r 0))) c) := by
  exact RowDims.rowGather_apply _ Cert.ReferenceIdeal.Gen.gather_S1000000x128_S1228800x1_S1228800x128_1_0_n_n_0_1_1128_wf x idx r c

/-- The kernel program's gather of table rows at `[122880, 10, 1]` start indices. -/
theorem kGatherNeigh_apply (x : Cert.KernelIdeal.S1000000x128.Idx → α) (idx : IVec Cert.KernelIdeal.S122880x10x1 w)
    (r : Fin 122880) (f : Fin 10) (c : Fin 128) :
    Host.gather Cert.KernelIdeal.gather_S1000000x128_S122880x10x1_S122880x10x128_2_0_n_n_0_2_1128 x idx (ix3 r f c)
      = x (ix2 (clampRow 1000000 (by decide) (idx (ix3 r f 0))) c) := by
  exact RowDims.rowGather3_apply _ Cert.KernelIdeal.Gen.gather_S1000000x128_S122880x10x1_S122880x10x128_2_0_n_n_0_2_1128_wf x idx r f c

/-- The reference's gather of rows of its `[1228800, 128]` array at `[122880, 10, 1]` start indices. -/
theorem rGatherNeigh_apply (x : Cert.ReferenceIdeal.S1228800x128.Idx → α) (idx : IVec Cert.ReferenceIdeal.S122880x10x1 w)
    (r : Fin 122880) (f : Fin 10) (c : Fin 128) :
    Host.gather Cert.ReferenceIdeal.gather_S1228800x128_S122880x10x1_S122880x10x128_2_0_n_n_0_2_1128 x idx (ix3 r f c)
      = x (ix2 (clampRow 1228800 (by decide) (idx (ix3 r f 0))) c) := by
  exact RowDims.rowGather3_apply _ Cert.ReferenceIdeal.Gen.gather_S1228800x128_S122880x10x1_S122880x10x128_2_0_n_n_0_2_1128_wf x idx r f c

/-- The kernel program's gather of node ids at `[122880, 10, 1]` start indices. -/
theorem kGatherIds_apply (x : Cert.KernelIdeal.S1228800.Idx → α) (idx : IVec Cert.KernelIdeal.S122880x10x1 w)
    (r : Fin 122880) (f : Fin 10) :
    Host.gather Cert.KernelIdeal.gather_S1228800_S122880x10x1_S122880x10_n_0_n_n_0_2_1 x idx (ix2 r f)
      = x (ix1 (clampRow 1228800 (by decide) (idx (ix3 r f 0)))) := by
  have hi : takeIdx (ix2 r f : (⟨2, ![122880, 10]⟩ : Shape).Idx) = ix3 r f 0 := by
    funext a
    match a with
    | ⟨0, _⟩ => rfl
    | ⟨1, _⟩ => rfl
    | ⟨2, _⟩ => rfl
  refine (ValueIdx.gather_take_apply (by decide) Cert.KernelIdeal.Gen.gather_S1228800_S122880x10x1_S122880x10_n_0_n_n_0_2_1_wf x idx (ix2 r f)).trans ?_
  exact congrArg (fun j => x (ix1 (clampRow 1228800 (by decide) (idx j)))) hi

end Records

/-! ## The reference's stages read at an index -/

section Reference
open Cert.ReferenceIdeal Cert.ReferenceIdeal.Read

/-- The reference's wrapped node ids, carried as start indices `[1228800, 1]`, read at `(q, 0)`. -/
theorem ref_v5_apply (x1 : (⟨S1228800, .i32⟩ : BufTy).Contents (Elt Ideal)) (q : Fin 1228800) :
    val_main_v5 (F := Ideal) x1 (ix2 q 0) = wrap 1000000#32 (x1 (ix1 q)) := by
  rw [val_main_v5_apply]
  have hi : idx_main_v5 (ix2 q 0) = ix1 q := by
    funext a
    match a with
    | ⟨0, _⟩ => rfl
  rw [hi]
  rfl

/-- Row `q` of the reference's gathered `[1228800, 128]` array: the table's row at the wrapped, clamped id of `q`. -/
theorem ref_v6_apply (x0 : (⟨S1000000x128, .f32⟩ : BufTy).Contents (Elt Ideal))
    (x1 : (⟨S1228800, .i32⟩ : BufTy).Contents (Elt Ideal)) (q : Fin 1228800) (k : Fin 128) :
    val_main_v6 (F := Ideal) x0 x1 (ix2 q k)
      = x0 (ix2 (clampRow 1000000 (by decide) (wrap 1000000#32 (x1 (ix1 q)))) k) := by
  unfold val_main_v6
  rw [rGatherAll_apply, ref_v5_apply]

/-- The reference's wrapped neighbour positions, carried as start indices `[122880, 10, 1]`, read at `(p, f, 0)`. -/
theorem ref_v13_apply (x2 : (⟨S122880x10, .i32⟩ : BufTy).Contents (Elt Ideal)) (p : Fin 122880) (f : Fin 10) :
    val_main_v13 (F := Ideal) x2 (ix3 p f 0) = wrap 1228800#32 (x2 (ix2 p f)) := by
  rw [val_main_v13_apply]
  have hi : idx_main_v13 (ix3 p f 0) = ix2 p f := by
    funext a
    match a with
    | ⟨0, _⟩ => rfl
    | ⟨1, _⟩ => rfl
  rw [hi]
  rfl

/-- The reference's destination rows: the first 122880 rows of its gathered array. -/
theorem ref_v7_apply (x0 : (⟨S1000000x128, .f32⟩ : BufTy).Contents (Elt Ideal))
    (x1 : (⟨S1228800, .i32⟩ : BufTy).Contents (Elt Ideal)) (p : Fin 122880) (k : Fin 128) :
    val_main_v7 (F := Ideal) x0 x1 (ix2 p k)
      = x0 (ix2 (clampRow 1000000 (by decide) (wrap 1000000#32 (x1 (ix1 (Fin.castLE (by decide) p))))) k) := by
  rw [val_main_v7_apply]
  have hi : idx_main_v7 (ix2 p k) = ix2 (Fin.castLE (by decide : 122880 ≤ 1228800) p) k := by
    funext a
    match a with
    | ⟨0, _⟩ => rfl
    | ⟨1, _⟩ => rfl
  rw [hi, ref_v6_apply]

/-- The reference's neighbour rows: rows of its gathered array at the wrapped, clamped neighbour positions. -/
theorem ref_v14_apply (x0 : (⟨S1000000x128, .f32⟩ : BufTy).Contents (Elt Ideal))
    (x1 : (⟨S1228800, .i32⟩ : BufTy).Contents (Elt Ideal)) (x2 : (⟨S122880x10, .i32⟩ : BufTy).Contents (Elt Ideal))
    (p : Fin 122880) (f : Fin 10) (k : Fin 128) :
    val_main_v14 (F := Ideal) x0 x1 x2 (ix3 p f k)
      = x0 (ix2 (clampRow 1000000 (by decide) (wrap 1000000#32
          (x1 (ix1 (clampRow 1228800 (by decide) (wrap 1228800#32 (x2 (ix2 p f)))))))) k) := by
  unfold val_main_v14
  rw [rGatherNeigh_apply, ref_v13_apply, ref_v6_apply]

end Reference

/-! ## The kernel program's start indices read at an index -/

section Kernel
open Cert.KernelIdeal Cert.KernelIdeal.Gen

/-- The kernel program's destination start indices: the first 122880 node ids, wrapped, carried as `[122880, 1]`. -/
def kIdxDst (x1 : (⟨S1228800, .i32⟩ : BufTy).Contents (Elt Ideal)) : IVec S122880x1 32 :=
  broadcastInDim S122880x1 ![0] bcast_S122880_S122880x1_0
    (select
      (cmpi .slt (extractStridedSlice S122880 ![0] x1 slices_S1228800_S122880_0)
        (broadcastInDim S122880 ![] bcast_S_S122880 (constantI S_ 32 0#32)))
      (addi (extractStridedSlice S122880 ![0] x1 slices_S1228800_S122880_0)
        (broadcastInDim S122880 ![] bcast_S_S122880 (constantI S_ 32 1000000#32)))
      (extractStridedSlice S122880 ![0] x1 slices_S1228800_S122880_0))

/-- Read at `(p, 0)`: the wrapped id of node `p`. -/
theorem kIdxDst_apply (x1 : (⟨S1228800, .i32⟩ : BufTy).Contents (Elt Ideal)) (p : Fin 122880) :
    kIdxDst x1 (ix2 p 0) = wrap 1000000#32 (x1 (ix1 (Fin.castLE (by decide) p))) := by
  unfold kIdxDst
  -- the broadcast to a trailing unit axis reads the rank-1 array at `p`
  refine (broadcastInDim_apply _ bcast_S122880_S122880x1_0 _ (ix2 p 0) (ix1 p) (fun a => match a with
    | ⟨0, _⟩ => by show p.val = if (122880 : Nat) = 1 then 0 else p.val; rw [if_neg (by decide)])).trans ?_
  refine (wrapVec_apply _ bcast_S_S122880 _ _ _).trans ?_
  -- the slice from offset 0 reads the id array at the same position
  exact congrArg (wrap 1000000#32) (extractStridedSlice_apply ![0] x1 slices_S1228800_S122880_0 (ix1 p)
    (ix1 (Fin.castLE (by decide) p)) (fun a => match a with
      | ⟨0, _⟩ => by show p.val = 0 + p.val; omega))

/-- The kernel program's neighbour positions, wrapped into the id array's axis, carried as `[122880, 10, 1]`. -/
def kIdxPos (x2 : (⟨S122880x10, .i32⟩ : BufTy).Contents (Elt Ideal)) : IVec S122880x10x1 32 :=
  broadcastInDim S122880x10x1 ![0, 1] bcast_S122880x10_S122880x10x1_0_1
    (select (cmpi .slt x2 (broadcastInDim S122880x10 ![] bcast_S_S122880x10 (constantI S_ 32 0#32)))
      (addi x2 (broadcastInDim S122880x10 ![] bcast_S_S122880x10 (constantI S_ 32 1228800#32))) x2)

/-- Read at `(p, f, 0)`: the wrapped position of neighbour `f` of node `p`. -/
theorem kIdxPos_apply (x2 : (⟨S122880x10, .i32⟩ : BufTy).Contents (Elt Ideal)) (p : Fin 122880) (f : Fin 10) :
    kIdxPos x2 (ix3 p f 0) = wrap 1228800#32 (x2 (ix2 p f)) := by
  unfold kIdxPos
  refine (broadcastInDim_apply _ bcast_S122880x10_S122880x10x1_0_1 _ (ix3 p f 0) (ix2 p f) (fun a => match a with
    | ⟨0, _⟩ => by show p.val = if (122880 : Nat) = 1 then 0 else p.val; rw [if_neg (by decide)]
    | ⟨1, _⟩ => by show f.val = if (10 : Nat) = 1 then 0 else f.val; rw [if_neg (by decide)])).trans ?_
  exact wrapVec_apply _ bcast_S_S122880x10 _ _ _

/-- The kernel program's gathered neighbour ids: the id array at the wrapped, clamped neighbour positions. -/
def kIds (x1 : (⟨S1228800, .i32⟩ : BufTy).Contents (Elt Ideal)) (x2 : (⟨S122880x10, .i32⟩ : BufTy).Contents (Elt Ideal)) :
    IVec S122880x10 32 :=
  Host.gather gather_S1228800_S122880x10x1_S122880x10_n_0_n_n_0_2_1 x1 (kIdxPos x2)

/-- Read at `(p, f)`. -/
theorem kIds_apply (x1 : (⟨S1228800, .i32⟩ : BufTy).Contents (Elt Ideal)) (x2 : (⟨S122880x10, .i32⟩ : BufTy).Contents (Elt Ideal))
    (p : Fin 122880) (f : Fin 10) :
    kIds x1 x2 (ix2 p f) = x1 (ix1 (clampRow 1228800 (by decide) (wrap 1228800#32 (x2 (ix2 p f))))) := by
  unfold kIds
  rw [kGatherIds_apply, kIdxPos_apply]

/-- The kernel program's neighbour start indices: the gathered neighbour ids, wrapped into the table's row axis,
    carried as `[122880, 10, 1]`. -/
def kIdxNeigh (x1 : (⟨S1228800, .i32⟩ : BufTy).Contents (Elt Ideal)) (x2 : (⟨S122880x10, .i32⟩ : BufTy).Contents (Elt Ideal)) :
    IVec S122880x10x1 32 :=
  broadcastInDim S122880x10x1 ![0, 1] bcast_S122880x10_S122880x10x1_0_1
    (select (cmpi .slt (kIds x1 x2) (broadcastInDim S122880x10 ![] bcast_S_S122880x10 (constantI S_ 32 0#32)))
      (addi (kIds x1 x2) (broadcastInDim S122880x10 ![] bcast_S_S122880x10 (constantI S_ 32 1000000#32))) (kIds x1 x2))

/-- Read at `(p, f, 0)`: the wrapped id found at the wrapped, clamped position of neighbour `f` of node `p`. -/
theorem kIdxNeigh_apply (x1 : (⟨S1228800, .i32⟩ : BufTy).Contents (Elt Ideal))
    (x2 : (⟨S122880x10, .i32⟩ : BufTy).Contents (Elt Ideal)) (p : Fin 122880) (f : Fin 10) :
    kIdxNeigh x1 x2 (ix3 p f 0)
      = wrap 1000000#32 (x1 (ix1 (clampRow 1228800 (by decide) (wrap 1228800#32 (x2 (ix2 p f)))))) := by
  unfold kIdxNeigh
  refine (broadcastInDim_apply _ bcast_S122880x10_S122880x10x1_0_1 _ (ix3 p f 0) (ix2 p f) (fun a => match a with
    | ⟨0, _⟩ => by show p.val = if (122880 : Nat) = 1 then 0 else p.val; rw [if_neg (by decide)]
    | ⟨1, _⟩ => by show f.val = if (10 : Nat) = 1 then 0 else f.val; rw [if_neg (by decide)])).trans ?_
  refine (wrapVec_apply _ bcast_S_S122880x10 _ _ _).trans ?_
  rw [kIds_apply]

end Kernel

section KernelRows
open Cert.KernelIdeal Cert.KernelIdeal.Gen

/-- The kernel program's destination features as a function of the table and the node ids. -/
def kDst (x0 : (⟨S1000000x128, .f32⟩ : BufTy).Contents (Elt Ideal)) (x1 : (⟨S1228800, .i32⟩ : BufTy).Contents (Elt Ideal)) :
    S122880x128.Idx → EReal :=
  Host.gather gather_S1000000x128_S122880x1_S122880x128_1_0_n_n_0_1_1128
    (truncf (F := Ideal) .bf16 x0 bitsLt_bf16_f32) (kIdxDst x1)

/-- Read at `(p, k)`: the table's row at the wrapped, clamped id of node `p`; the format change is the identity. -/
theorem kDst_apply (x0 : (⟨S1000000x128, .f32⟩ : BufTy).Contents (Elt Ideal))
    (x1 : (⟨S1228800, .i32⟩ : BufTy).Contents (Elt Ideal)) (p : Fin 122880) (k : Fin 128) :
    kDst x0 x1 (ix2 p k)
      = x0 (ix2 (clampRow 1000000 (by decide) (wrap 1000000#32 (x1 (ix1 (Fin.castLE (by decide) p))))) k) := by
  unfold kDst
  rw [kGatherDst_apply, kIdxDst_apply]
  rfl

/-- The kernel program's neighbour features as a function of the table, the node ids and the neighbour positions. -/
def kNeigh (x0 : (⟨S1000000x128, .f32⟩ : BufTy).Contents (Elt Ideal)) (x1 : (⟨S1228800, .i32⟩ : BufTy).Contents (Elt Ideal))
    (x2 : (⟨S122880x10, .i32⟩ : BufTy).Contents (Elt Ideal)) : S122880x10x128.Idx → EReal :=
  Host.gather gather_S1000000x128_S122880x10x1_S122880x10x128_2_0_n_n_0_2_1128
    (truncf (F := Ideal) .bf16 x0 bitsLt_bf16_f32) (kIdxNeigh x1 x2)

/-- Read at `(p, f, k)`: the table's row at the wrapped, clamped id found at the wrapped, clamped position of
    neighbour `f` of node `p`; the format change is the identity. -/
theorem kNeigh_apply (x0 : (⟨S1000000x128, .f32⟩ : BufTy).Contents (Elt Ideal))
    (x1 : (⟨S1228800, .i32⟩ : BufTy).Contents (Elt Ideal)) (x2 : (⟨S122880x10, .i32⟩ : BufTy).Contents (Elt Ideal))
    (p : Fin 122880) (f : Fin 10) (k : Fin 128) :
    kNeigh x0 x1 x2 (ix3 p f k)
      = x0 (ix2 (clampRow 1000000 (by decide) (wrap 1000000#32
          (x1 (ix1 (clampRow 1228800 (by decide) (wrap 1228800#32 (x2 (ix2 p f)))))))) k) := by
  unfold kNeigh
  rw [kGatherNeigh_apply, kIdxNeigh_apply]
  rfl

end KernelRows

variable (m : (ℓ : Loc Cert.KernelIdeal.nD Cert.KernelIdeal.τ Cert.KernelIdeal.sig) → Buf (Elt Ideal) ℓ)
  (ρ : Dev Cert.KernelIdeal.nD → PrngReg)

/-- Destination rows: entry `(p, k)` of the kernel program's gathered destination features, as the first region
    finds them, is the reference's at the same entry. -/
theorem dst_rows (c : Dev Cert.KernelIdeal.nD) (p : Fin 122880) (k : Fin 128) :
    (Cert.KernelIdeal.Gen.V1 m ρ c Cert.KernelIdeal.main_v15 : Cert.KernelIdeal.S122880x128.Idx → EReal) (ix2 p k)
      = (Cert.ReferenceIdeal.Read.val_main_v7 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          : Cert.ReferenceIdeal.S122880x128.Idx → EReal) (ix2 p k) := by
  -- what the host operations before the first region leave in the destination buffer
  have e : @Eq (Cert.KernelIdeal.S122880x128.Idx → EReal) (Cert.KernelIdeal.Gen.V1 m ρ c Cert.KernelIdeal.main_v15)
      (kDst (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) := by
    show StableHlo.after Cert.KernelIdeal.Gen.hostOps0 _ (Proc.devRef .tc Cert.KernelIdeal.main_v15) = _
    after_results_simp
    rfl
  -- both sides read the same row of the table
  refine (congrFun e (ix2 p k)).trans ?_
  rw [kDst_apply, ref_v7_apply]

/-- Neighbour rows: entry `(p, f, k)` of the kernel program's gathered neighbour features, as the first region
    finds them, is the reference's at the same entry. -/
theorem neigh_rows (c : Dev Cert.KernelIdeal.nD) (p : Fin 122880) (f : Fin 10) (k : Fin 128) :
    (Cert.KernelIdeal.Gen.V1 m ρ c Cert.KernelIdeal.main_v22 : Cert.KernelIdeal.S122880x10x128.Idx → EReal) (ix3 p f k)
      = (Cert.ReferenceIdeal.Read.val_main_v14 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          : Cert.ReferenceIdeal.S122880x10x128.Idx → EReal) (ix3 p f k) := by
  -- what the host operations before the first region leave in the neighbour buffer
  have e : @Eq (Cert.KernelIdeal.S122880x10x128.Idx → EReal) (Cert.KernelIdeal.Gen.V1 m ρ c Cert.KernelIdeal.main_v22)
      (kNeigh (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))) := by
    show StableHlo.after Cert.KernelIdeal.Gen.hostOps0 _ (Proc.devRef .tc Cert.KernelIdeal.main_v22) = _
    after_results_simp
    rfl
  -- both sides read the same row of the table
  refine (congrFun e (ix3 p f k)).trans ?_
  rw [kNeigh_apply, ref_v14_apply]

end Cert.GatherRows

end
-- ==== Proof.Bridge.lean ====
/-
  The kernel program's result is the reference's, array by array down the three layers.

  After the first pipeline the hidden array holds the rectified layer value of the gathered destination and
  neighbour rows; the reference's first stage is the same function of the same rows, so the two hidden arrays are
  equal. From there on both programs apply the same host operations (a row slice, a row gather at the wrapped
  neighbour positions, three row slices and two row stackings) to equal arrays, and each later pipeline computes the
  layer or predictor function that the reference's next stage computes, so the equality is handed down to the scores.
-/
import proofs.«119072_j27779848471357_1_alg».proof.Proof.Gen.KernelIdeal.Frame
import proofs.«119072_j27779848471357_1_alg».proof.Proof.Gen.ReferenceIdeal.Run
import proofs.«119072_j27779848471357_1_alg».proof.Proof.Gen.ReferenceIdeal.Read
import proofs.«119072_j27779848471357_1_alg».proof.Proof.Spec
import proofs.«119072_j27779848471357_1_alg».proof.Proof.Layer0Value
import proofs.«119072_j27779848471357_1_alg».proof.Proof.Layer1Value
import proofs.«119072_j27779848471357_1_alg».proof.Proof.ScoreValue
import proofs.«119072_j27779848471357_1_alg».proof.Proof.RefStages
import proofs.«119072_j27779848471357_1_alg».proof.Proof.GatherRows
import Idealize.ShloMosaic.Lib.StableHlo.Run
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.Sage

/-- The layer function depends on its five inputs only through their entries. -/
theorem layerAt_congr {N Fa D H : Nat} {xd xd' : Fin N → Fin D → EReal} {xn xn' : Fin N → Fin Fa → Fin D → EReal}
    {Ws Ws' Wn Wn' : Fin D → Fin H → EReal} {b b' : Fin H → EReal}
    (hd : ∀ p k, xd p k = xd' p k) (hn : ∀ p f k, xn p f k = xn' p f k)
    (hs : ∀ k q, Ws k q = Ws' k q) (hw : ∀ k q, Wn k q = Wn' k q) (hb : ∀ q, b q = b' q) (p : Fin N) (q : Fin H) :
    layerAt xd xn Ws Wn b p q = layerAt xd' xn' Ws' Wn' b' p q := by
  obtain rfl : xd = xd' := funext fun p => funext fun k => hd p k
  obtain rfl : xn = xn' := funext fun p => funext fun f => funext fun k => hn p f k
  obtain rfl : Ws = Ws' := funext fun k => funext fun q => hs k q
  obtain rfl : Wn = Wn' := funext fun k => funext fun q => hw k q
  obtain rfl : b = b' := funext hb
  rfl

end Cert.Sage

namespace Cert.Bridge

open Cert.KernelIdeal Cert.KernelIdeal.Gen Cert.Sage

variable (m : (ℓ : Loc nD τ sig) → Buf (Elt Ideal) ℓ) (ρ : Dev nD → PrngReg)

/-! ## A host stretch leaves alone every buffer none of its operations writes -/

/-- Closes `StableHlo.after ops W b = W b` for a stretch `ops` (named by its definition) none of whose operations
    writes `b`: each operation's written buffer is compared with `b`. -/
local macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The arguments as each region finds them are the launch contents

No host operation and no pipeline writes an argument, so at every segment boundary an argument's buffer still holds
what the launch gave it. -/

theorem W1_arg3 (c : Dev nD) : W1 m ρ c (Proc.devRef .tc main_arg3) = m ((c.tc : Thread nD τ).loc main_arg3) :=
  (show StableHlo.after hostOps0 (W0 m ρ c) (Proc.devRef .tc main_arg3) = W0 m ρ c (Proc.devRef .tc main_arg3) by stretch_keeps hostOps0).trans rfl
theorem W1_arg4 (c : Dev nD) : W1 m ρ c (Proc.devRef .tc main_arg4) = m ((c.tc : Thread nD τ).loc main_arg4) :=
  (show StableHlo.after hostOps0 (W0 m ρ c) (Proc.devRef .tc main_arg4) = W0 m ρ c (Proc.devRef .tc main_arg4) by stretch_keeps hostOps0).trans rfl
theorem W1_arg5 (c : Dev nD) : W1 m ρ c (Proc.devRef .tc main_arg5) = m ((c.tc : Thread nD τ).loc main_arg5) :=
  (show StableHlo.after hostOps0 (W0 m ρ c) (Proc.devRef .tc main_arg5) = W0 m ρ c (Proc.devRef .tc main_arg5) by stretch_keeps hostOps0).trans rfl
theorem W1_arg6 (c : Dev nD) : W1 m ρ c (Proc.devRef .tc main_arg6) = m ((c.tc : Thread nD τ).loc main_arg6) :=
  (show StableHlo.after hostOps0 (W0 m ρ c) (Proc.devRef .tc main_arg6) = W0 m ρ c (Proc.devRef .tc main_arg6) by stretch_keeps hostOps0).trans rfl
theorem W1_arg7 (c : Dev nD) : W1 m ρ c (Proc.devRef .tc main_arg7) = m ((c.tc : Thread nD τ).loc main_arg7) :=
  (show StableHlo.after hostOps0 (W0 m ρ c) (Proc.devRef .tc main_arg7) = W0 m ρ c (Proc.devRef .tc main_arg7) by stretch_keeps hostOps0).trans rfl
theorem W1_arg8 (c : Dev nD) : W1 m ρ c (Proc.devRef .tc main_arg8) = m ((c.tc : Thread nD τ).loc main_arg8) :=
  (show StableHlo.after hostOps0 (W0 m ρ c) (Proc.devRef .tc main_arg8) = W0 m ρ c (Proc.devRef .tc main_arg8) by stretch_keeps hostOps0).trans rfl
theorem W1_arg9 (c : Dev nD) : W1 m ρ c (Proc.devRef .tc main_arg9) = m ((c.tc : Thread nD τ).loc main_arg9) :=
  (show StableHlo.after hostOps0 (W0 m ρ c) (Proc.devRef .tc main_arg9) = W0 m ρ c (Proc.devRef .tc main_arg9) by stretch_keeps hostOps0).trans rfl
theorem W1_arg10 (c : Dev nD) : W1 m ρ c (Proc.devRef .tc main_arg10) = m ((c.tc : Thread nD τ).loc main_arg10) :=
  (show StableHlo.after hostOps0 (W0 m ρ c) (Proc.devRef .tc main_arg10) = W0 m ρ c (Proc.devRef .tc main_arg10) by stretch_keeps hostOps0).trans rfl
theorem W1_arg11 (c : Dev nD) : W1 m ρ c (Proc.devRef .tc main_arg11) = m ((c.tc : Thread nD τ).loc main_arg11) :=
  (show StableHlo.after hostOps0 (W0 m ρ c) (Proc.devRef .tc main_arg11) = W0 m ρ c (Proc.devRef .tc main_arg11) by stretch_keeps hostOps0).trans rfl
theorem W1_arg12 (c : Dev nD) : W1 m ρ c (Proc.devRef .tc main_arg12) = m ((c.tc : Thread nD τ).loc main_arg12) :=
  (show StableHlo.after hostOps0 (W0 m ρ c) (Proc.devRef .tc main_arg12) = W0 m ρ c (Proc.devRef .tc main_arg12) by stretch_keeps hostOps0).trans rfl
theorem W1_arg13 (c : Dev nD) : W1 m ρ c (Proc.devRef .tc main_arg13) = m ((c.tc : Thread nD τ).loc main_arg13) :=
  (show StableHlo.after hostOps0 (W0 m ρ c) (Proc.devRef .tc main_arg13) = W0 m ρ c (Proc.devRef .tc main_arg13) by stretch_keeps hostOps0).trans rfl
theorem W1_arg14 (c : Dev nD) : W1 m ρ c (Proc.devRef .tc main_arg14) = m ((c.tc : Thread nD τ).loc main_arg14) :=
  (show StableHlo.after hostOps0 (W0 m ρ c) (Proc.devRef .tc main_arg14) = W0 m ρ c (Proc.devRef .tc main_arg14) by stretch_keeps hostOps0).trans rfl
theorem W1_arg15 (c : Dev nD) : W1 m ρ c (Proc.devRef .tc main_arg15) = m ((c.tc : Thread nD τ).loc main_arg15) :=
  (show StableHlo.after hostOps0 (W0 m ρ c) (Proc.devRef .tc main_arg15) = W0 m ρ c (Proc.devRef .tc main_arg15) by stretch_keeps hostOps0).trans rfl

theorem W2_arg3 (c : Dev nD) : W2 m ρ c (Proc.devRef .tc main_arg3) = m ((c.tc : Thread nD τ).loc main_arg3) :=
  (W2_of_ne m ρ c main_arg3 (by decide)).trans (W1_arg3 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)
theorem W2_arg9 (c : Dev nD) : W2 m ρ c (Proc.devRef .tc main_arg9) = m ((c.tc : Thread nD τ).loc main_arg9) :=
  (W2_of_ne m ρ c main_arg9 (by decide)).trans (W1_arg9 m ρ c)
theorem W2_arg10 (c : Dev nD) : W2 m ρ c (Proc.devRef .tc main_arg10) = m ((c.tc : Thread nD τ).loc main_arg10) :=
  (W2_of_ne m ρ c main_arg10 (by decide)).trans (W1_arg10 m ρ c)
theorem W2_arg11 (c : Dev nD) : W2 m ρ c (Proc.devRef .tc main_arg11) = m ((c.tc : Thread nD τ).loc main_arg11) :=
  (W2_of_ne m ρ c main_arg11 (by decide)).trans (W1_arg11 m ρ c)
theorem W2_arg12 (c : Dev nD) : W2 m ρ c (Proc.devRef .tc main_arg12) = m ((c.tc : Thread nD τ).loc main_arg12) :=
  (W2_of_ne m ρ c main_arg12 (by decide)).trans (W1_arg12 m ρ c)
theorem W2_arg13 (c : Dev nD) : W2 m ρ c (Proc.devRef .tc main_arg13) = m ((c.tc : Thread nD τ).loc main_arg13) :=
  (W2_of_ne m ρ c main_arg13 (by decide)).trans (W1_arg13 m ρ c)
theorem W2_arg14 (c : Dev nD) : W2 m ρ c (Proc.devRef .tc main_arg14) = m ((c.tc : Thread nD τ).loc main_arg14) :=
  (W2_of_ne m ρ c main_arg14 (by decide)).trans (W1_arg14 m ρ c)
theorem W2_arg15 (c : Dev nD) : W2 m ρ c (Proc.devRef .tc main_arg15) = m ((c.tc : Thread nD τ).loc main_arg15) :=
  (W2_of_ne m ρ c main_arg15 (by decide)).trans (W1_arg15 m ρ c)

theorem W3_arg7 (c : Dev nD) : W3 m ρ c (Proc.devRef .tc main_arg7) = m ((c.tc : Thread nD τ).loc main_arg7) :=
  (show StableHlo.after hostOps1 (W2 m ρ c) (Proc.devRef .tc main_arg7) = W2 m ρ c (Proc.devRef .tc main_arg7) by stretch_keeps hostOps1).trans (W2_arg7 m ρ c)
theorem W3_arg8 (c : Dev nD) : W3 m ρ c (Proc.devRef .tc main_arg8) = m ((c.tc : Thread nD τ).loc main_arg8) :=
  (show StableHlo.after hostOps1 (W2 m ρ c) (Proc.devRef .tc main_arg8) = W2 m ρ c (Proc.devRef .tc main_arg8) by stretch_keeps hostOps1).trans (W2_arg8 m ρ c)
theorem W3_arg9 (c : Dev nD) : W3 m ρ c (Proc.devRef .tc main_arg9) = m ((c.tc : Thread nD τ).loc main_arg9) :=
  (show StableHlo.after hostOps1 (W2 m ρ c) (Proc.devRef .tc main_arg9) = W2 m ρ c (Proc.devRef .tc main_arg9) by stretch_keeps hostOps1).trans (W2_arg9 m ρ c)
theorem W3_arg10 (c : Dev nD) : W3 m ρ c (Proc.devRef .tc main_arg10) = m ((c.tc : Thread nD τ).loc main_arg10) :=
  (show StableHlo.after hostOps1 (W2 m ρ c) (Proc.devRef .tc main_arg10) = W2 m ρ c (Proc.devRef .tc main_arg10) by stretch_keeps hostOps1).trans (W2_arg10 m ρ c)
theorem W3_arg11 (c : Dev nD) : W3 m ρ c (Proc.devRef .tc main_arg11) = m ((c.tc : Thread nD τ).loc main_arg11) :=
  (show StableHlo.after hostOps1 (W2 m ρ c) (Proc.devRef .tc main_arg11) = W2 m ρ c (Proc.devRef .tc main_arg11) by stretch_keeps hostOps1).trans (W2_arg11 m ρ c)
theorem W3_arg12 (c : Dev nD) : W3 m ρ c (Proc.devRef .tc main_arg12) = m ((c.tc : Thread nD τ).loc main_arg12) :=
  (show StableHlo.after hostOps1 (W2 m ρ c) (Proc.devRef .tc main_arg12) = W2 m ρ c (Proc.devRef .tc main_arg12) by stretch_keeps hostOps1).trans (W2_arg12 m ρ c)
theorem W3_arg13 (c : Dev nD) : W3 m ρ c (Proc.devRef .tc main_arg13) = m ((c.tc : Thread nD τ).loc main_arg13) :=
  (show StableHlo.after hostOps1 (W2 m ρ c) (Proc.devRef .tc main_arg13) = W2 m ρ c (Proc.devRef .tc main_arg13) by stretch_keeps hostOps1).trans (W2_arg13 m ρ c)
theorem W3_arg14 (c : Dev nD) : W3 m ρ c (Proc.devRef .tc main_arg14) = m ((c.tc : Thread nD τ).loc main_arg14) :=
  (show StableHlo.after hostOps1 (W2 m ρ c) (Proc.devRef .tc main_arg14) = W2 m ρ c (Proc.devRef .tc main_arg14) by stretch_keeps hostOps1).trans (W2_arg14 m ρ c)
theorem W3_arg15 (c : Dev nD) : W3 m ρ c (Proc.devRef .tc main_arg15) = m ((c.tc : Thread nD τ).loc main_arg15) :=
  (show StableHlo.after hostOps1 (W2 m ρ c) (Proc.devRef .tc main_arg15) = W2 m ρ c (Proc.devRef .tc main_arg15) by stretch_keeps hostOps1).trans (W2_arg15 m ρ c)

theorem W4_arg10 (c : Dev nD) : W4 m ρ c (Proc.devRef .tc main_arg10) = m ((c.tc : Thread nD τ).loc main_arg10) :=
  (W4_of_ne m ρ c main_arg10 (by decide)).trans (W3_arg10 m ρ c)
theorem W4_arg11 (c : Dev nD) : W4 m ρ c (Proc.devRef .tc main_arg11) = m ((c.tc : Thread nD τ).loc main_arg11) :=
  (W4_of_ne m ρ c main_arg11 (by decide)).trans (W3_arg11 m ρ c)
theorem W4_arg12 (c : Dev nD) : W4 m ρ c (Proc.devRef .tc main_arg12) = m ((c.tc : Thread nD τ).loc main_arg12) :=
  (W4_of_ne m ρ c main_arg12 (by decide)).trans (W3_arg12 m ρ c)
theorem W4_arg13 (c : Dev nD) : W4 m ρ c (Proc.devRef .tc main_arg13) = m ((c.tc : Thread nD τ).loc main_arg13) :=
  (W4_of_ne m ρ c main_arg13 (by decide)).trans (W3_arg13 m ρ c)
theorem W4_arg14 (c : Dev nD) : W4 m ρ c (Proc.devRef .tc main_arg14) = m ((c.tc : Thread nD τ).loc main_arg14) :=
  (W4_of_ne m ρ c main_arg14 (by decide)).trans (W3_arg14 m ρ c)
theorem W4_arg15 (c : Dev nD) : W4 m ρ c (Proc.devRef .tc main_arg15) = m ((c.tc : Thread nD τ).loc main_arg15) :=
  (W4_of_ne m ρ c main_arg15 (by decide)).trans (W3_arg15 m ρ c)

theorem W5_arg10 (c : Dev nD) : W5 m ρ c (Proc.devRef .tc main_arg10) = m ((c.tc : Thread nD τ).loc main_arg10) :=
  (show StableHlo.after hostOps2 (W4 m ρ c) (Proc.devRef .tc main_arg10) = W4 m ρ c (Proc.devRef .tc main_arg10) by stretch_keeps hostOps2).trans (W4_arg10 m ρ c)
theorem W5_arg11 (c : Dev nD) : W5 m ρ c (Proc.devRef .tc main_arg11) = m ((c.tc : Thread nD τ).loc main_arg11) :=
  (show StableHlo.after hostOps2 (W4 m ρ c) (Proc.devRef .tc main_arg11) = W4 m ρ c (Proc.devRef .tc main_arg11) by stretch_keeps hostOps2).trans (W4_arg11 m ρ c)
theorem W5_arg12 (c : Dev nD) : W5 m ρ c (Proc.devRef .tc main_arg12) = m ((c.tc : Thread nD τ).loc main_arg12) :=
  (show StableHlo.after hostOps2 (W4 m ρ c) (Proc.devRef .tc main_arg12) = W4 m ρ c (Proc.devRef .tc main_arg12) by stretch_keeps hostOps2).trans (W4_arg12 m ρ c)
theorem W5_arg13 (c : Dev nD) : W5 m ρ c (Proc.devRef .tc main_arg13) = m ((c.tc : Thread nD τ).loc main_arg13) :=
  (show StableHlo.after hostOps2 (W4 m ρ c) (Proc.devRef .tc main_arg13) = W4 m ρ c (Proc.devRef .tc main_arg13) by stretch_keeps hostOps2).trans (W4_arg13 m ρ c)
theorem W5_arg14 (c : Dev nD) : W5 m ρ c (Proc.devRef .tc main_arg14) = m ((c.tc : Thread nD τ).loc main_arg14) :=
  (show StableHlo.after hostOps2 (W4 m ρ c) (Proc.devRef .tc main_arg14) = W4 m ρ c (Proc.devRef .tc main_arg14) by stretch_keeps hostOps2).trans (W4_arg14 m ρ c)
theorem W5_arg15 (c : Dev nD) : W5 m ρ c (Proc.devRef .tc main_arg15) = m ((c.tc : Thread nD τ).loc main_arg15) :=
  (show StableHlo.after hostOps2 (W4 m ρ c) (Proc.devRef .tc main_arg15) = W4 m ρ c (Proc.devRef .tc main_arg15) by stretch_keeps hostOps2).trans (W4_arg15 m ρ c)

/-! ## The first hidden array -/

/-- After the first pipeline the hidden array is the reference's rectified first stage of the launch contents: the
    same layer function of the same gathered rows (`GatherRows`), weights and bias. -/
theorem hidden0_eq (c : Dev nD) :
    (W2 m ρ c (Proc.devRef .tc main_v23) : S122880x256.Idx → EReal)
      = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  funext i
  rw [eq_ix2 i]
  refine (congrFun (W2_arr m ρ c 5) _).trans ?_
  refine (Cert.KernelIdeal.Layer0.out_apply (V1 m ρ) c (i 0) (i 1)).trans ?_
  refine Eq.trans ?_ (Cert.ReferenceIdeal.Stages.layer0_apply _ _ _ _ _ _ (i 0) (i 1)).symm
  refine congrArg (fun x : EReal => max x 0) (layerAt_congr ?_ ?_ ?_ ?_ ?_ _ _)
  · intro p k; exact Cert.GatherRows.dst_rows m ρ c p k
  · intro p f k; exact Cert.GatherRows.neigh_rows m ρ c p f k
  · intro k q; rw [show V1 m ρ c main_arg4 = _ from W1_arg4 m ρ c]
  · intro k q; rw [show V1 m ρ c main_arg5 = _ from W1_arg5 m ρ c]
  · intro q; rw [show V1 m ρ c main_arg6 = _ from W1_arg6 m ρ c]

/-! ## The second layer -/

/-- The second layer's destination rows: the same row slice of equal hidden arrays. -/
theorem dst1_eq (c : Dev nD) :
    (V3 m ρ c main_v24 : S12288x256.Idx → EReal) = Cert.ReferenceIdeal.Read.val_main_v25 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  show StableHlo.after hostOps1 (W2 m ρ c) (Proc.devRef .tc main_v24) = _
  after_results
  rw [hidden0_eq m ρ c]
  rfl

/-- The second layer's neighbour rows: the same row gather, at the same wrapped positions, of equal hidden arrays. -/
theorem neigh1_eq (c : Dev nD) :
    (V3 m ρ c main_v31 : S12288x10x256.Idx → EReal) = Cert.ReferenceIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W2 m ρ c) (Proc.devRef .tc main_v31) = _
  after_results
  rw [hidden0_eq m ρ c, W2_arg3 m ρ c]
  rfl

/-- After the second pipeline the hidden array is the reference's second stage of the launch contents. -/
theorem hidden1_eq (c : Dev nD) :
    (W4 m ρ c (Proc.devRef .tc main_v32) : S12288x256.Idx → EReal) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  rw [eq_ix2 i]
  refine (congrFun (W4_arr m ρ c 5) _).trans ?_
  refine (Cert.KernelIdeal.Layer1.out_apply (V3 m ρ) c (i 0) (i 1)).trans ?_
  refine Eq.trans ?_ (Cert.ReferenceIdeal.Stages.layer1_apply _ _ _ _ _ _ _ _ _ _ (i 0) (i 1)).symm
  refine layerAt_congr ?_ ?_ ?_ ?_ ?_ _ _
  · intro p k; exact congrFun (dst1_eq m ρ c) _
  · intro p f k; exact congrFun (neigh1_eq m ρ c) _
  · intro k q; rw [show V3 m ρ c main_arg7 = _ from W3_arg7 m ρ c]
  · intro k q; rw [show V3 m ρ c main_arg8 = _ from W3_arg8 m ρ c]
  · intro q; rw [show V3 m ρ c main_arg9 = _ from W3_arg9 m ρ c]

/-! ## The predictor -/

/-- The source rows stacked twice: the same slices and stacking of equal hidden arrays. -/
theorem pairA_eq (c : Dev nD) :
    (V5 m ρ c main_v36 : S8192x256.Idx → EReal) = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v36) = _
  after_results
  rw [hidden1_eq m ρ c]
  rfl

/-- The positive rows stacked on the negative rows: the same slices and stacking of equal hidden arrays. -/
theorem pairB_eq (c : Dev nD) :
    (V5 m ρ c main_v37 : S8192x256.Idx → EReal) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v37) = _
  after_results
  rw [hidden1_eq m ρ c]
  rfl

/-- The predictor function depends on its inputs only through their entries. -/
theorem scoreAt_congr {N H : Nat} {a a' c₁ c₁' : Fin N → Fin H → EReal} {W1 W1' W2 W2' : Fin H → Fin H → EReal}
    {b1 b1' b2 b2' : Fin H → EReal} {W3 W3' : Fin H → EReal} {b3 b3' : EReal}
    (ha : ∀ p k, a p k = a' p k) (hc : ∀ p k, c₁ p k = c₁' p k) (h1 : ∀ k j, W1 k j = W1' k j) (hb1 : ∀ j, b1 j = b1' j)
    (h2 : ∀ k j, W2 k j = W2' k j) (hb2 : ∀ j, b2 j = b2' j) (h3 : ∀ k, W3 k = W3' k) (hb3 : b3 = b3') (p : Fin N) :
    scoreAt a c₁ W1 b1 W2 b2 W3 b3 p = scoreAt a' c₁' W1' b1' W2' b2' W3' b3' p := by
  obtain rfl : a = a' := funext fun p => funext fun k => ha p k
  obtain rfl : c₁ = c₁' := funext fun p => funext fun k => hc p k
  obtain rfl : W1 = W1' := funext fun k => funext fun j => h1 k j
  obtain rfl : b1 = b1' := funext hb1
  obtain rfl : W2 = W2' := funext fun k => funext fun j => h2 k j
  obtain rfl : b2 = b2' := funext hb2
  obtain rfl : W3 = W3' := funext h3
  obtain rfl := hb3
  rfl

/-- After the last pipeline the score array is the reference's result of the launch contents. -/
theorem scores_eq (c : Dev nD) :
    (W6 m ρ c (Proc.devRef .tc main_v38) : S8192x1.Idx → EReal) = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  -- every index of the one-column score array is (p, 0)
  refine funext fun (i : S8192x1.Idx) => ?_
  have hi : i = ix2 (⟨(i 0).val, (i 0).isLt⟩ : Fin 8192) (0 : Fin 1) := by
    funext a
    refine Fin.ext ?_
    match a with
    | ⟨0, _⟩ => rfl
    | ⟨1, _⟩ => exact Nat.lt_one_iff.mp (i 1).isLt
  rw [hi]
  generalize (⟨(i 0).val, (i 0).isLt⟩ : Fin 8192) = p
  refine (congrFun (W6_arr m ρ c 8) _).trans ?_
  refine (Cert.KernelIdeal.Score.out_apply (V5 m ρ) c p).trans ?_
  refine Eq.trans ?_ (Cert.ReferenceIdeal.Stages.score_apply _ _ _ _ _ _ _ _ _ _ _ _ _ _ _ _ p).symm
  refine scoreAt_congr ?_ ?_ ?_ ?_ ?_ ?_ ?_ ?_ _
  · intro p k; exact congrFun (pairA_eq m ρ c) _
  · intro p k; exact congrFun (pairB_eq m ρ c) _
  · intro k j; rw [show V5 m ρ c main_arg10 = _ from W5_arg10 m ρ c]
  · intro j; rw [show V5 m ρ c main_arg11 = _ from W5_arg11 m ρ c]
  · intro k j; rw [show V5 m ρ c main_arg12 = _ from W5_arg12 m ρ c]
  · intro j; rw [show V5 m ρ c main_arg13 = _ from W5_arg13 m ρ c]
  · intro k; rw [show V5 m ρ c main_arg14 = _ from W5_arg14 m ρ c]
  · rw [show V5 m ρ c main_arg15 = _ from W5_arg15 m ρ c]

end Cert.Bridge

end
-- ==== Proof.lean ====
/-
  The certificate's claim: a two-layer neighbourhood-aggregation network with a three-layer link predictor, computed
  by three pipelined kernels around host gathers, against the same network written with whole-array operations.

  At the extended reals both programs compute, for every pair, the same function of the inputs: the first layer is
  `relu(x_dst · W_self + mean(x_neigh) · W_neigh + b)` over table rows chosen by wrapped and clamped indices, the
  second the same without rectification over rows of the first, the predictor three affine layers over entrywise
  products of rows of the second. The kernels differ from the reference only in reading rows block by block, in
  keeping intermediate arrays in a shorter float format (the identity over the reals), and in gathering table rows
  at composed indices where the reference gathers twice: none of these changes a value. No algebraic law beyond the
  equality of the two sides' terms is used, so the finiteness of the inputs is never opened.

  The three frames are the generated ones (the reference's is its generated run with the result dropped); the
  idealization rewrote nothing, so there is nothing to preserve; the value claim runs both programs, the kernel's
  with its result buffer read at the last segment boundary, and joins the two results by `Cert.Bridge.scores_eq`.
-/
import proofs.«119072_j27779848471357_1_alg».proof.Defs
import proofs.«119072_j27779848471357_1_alg».proof.Proof.Gen.Kernel
import proofs.«119072_j27779848471357_1_alg».proof.Proof.Gen.Kernel.Skeleton
import proofs.«119072_j27779848471357_1_alg».proof.Proof.Gen.Kernel.Launch
import proofs.«119072_j27779848471357_1_alg».proof.Proof.Gen.Kernel.Points
import proofs.«119072_j27779848471357_1_alg».proof.Proof.Gen.Kernel.Frame
import proofs.«119072_j27779848471357_1_alg».proof.Proof.Gen.KernelIdeal
import proofs.«119072_j27779848471357_1_alg».proof.Proof.Gen.KernelIdeal.Skeleton
import proofs.«119072_j27779848471357_1_alg».proof.Proof.Gen.KernelIdeal.Launch
import proofs.«119072_j27779848471357_1_alg».proof.Proof.Gen.KernelIdeal.Points
import proofs.«119072_j27779848471357_1_alg».proof.Proof.Gen.KernelIdeal.Frame
import proofs.«119072_j27779848471357_1_alg».proof.Proof.Gen.ReferenceIdeal
import proofs.«119072_j27779848471357_1_alg».proof.Proof.Gen.ReferenceIdeal.Run
import proofs.«119072_j27779848471357_1_alg».proof.Proof.Gen.ReferenceIdeal.Read
import proofs.«119072_j27779848471357_1_alg».proof.Proof.Gen.Pre_finite_inputs
import proofs.«119072_j27779848471357_1_alg».proof.Proof.RunNamed
import proofs.«119072_j27779848471357_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the same scores: the kernel program's
    result buffer holds the last segment boundary's contents, which are the reference's result term of the same
    arguments. -/
theorem algebraic : Cert.algebraic_KernelIdeal_ReferenceIdeal := by
  intro m ρ m' ρ' _ hagree
  refine ⟨fun c => Cert.KernelIdeal.Gen.W6 m ρ c (Proc.devRef .tc Cert.KernelIdeal.main_v38),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v61_eq, e0, e1, e2, e3, e4, e5, e6, e7, e8, e9, e10, e11, e12, e13, e14, e15]
  exact (Cert.Bridge.scores_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
